-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x500 : Shape := ⟨2, ![256, 500]⟩
abbrev S500x256x256 : Shape := ⟨3, ![500, 256, 256]⟩
abbrev S_ : Shape := ⟨0, ![]⟩

class Facts : Prop where
  bcast_S_S256x500 : S_.BroadcastsInDim S256x500 (![] : Fin 0 → Fin S256x500.rank)
  reducesTo_S256x500_S_d0_1 : S256x500.ReducesTo [0, 1] S_
  h_S_ : 0 < S_.numel
  bcast_S_S500x256x256 : S_.BroadcastsInDim S500x256x256 (![] : Fin 0 → Fin S500x256x256.rank)
  reducesTo_S500x256x256_S_d0_1_2 : S500x256x256.ReducesTo [0, 1, 2] S_

variable [Facts]

def fn {F : FTy → Type} [FloatOps F] (main_arg0 : FVec F S256x500 .f32) (main_arg1 : FVec F S500x256x256 .f32) (main_arg2 : IVec S256x500 32) : IVec S_ 1 :=
  let main_v0 : FVec F S256x500 .f32 := Host.absf main_arg0
  let main_cst : FVec F S_ .f32 := constant S_ .f32 0x7F800000#32
  let main_v1 : FVec F S256x500 .f32 := broadcastInDim S256x500 ![] bcast_S_S256x500 main_cst
  let main_v2 : IVec S256x500 1 := cmpf .olt main_v0 main_v1
  let main_c : IVec S_ 1 := constantI S_ 1 1#1
  let main_v3 : IVec S_ 1 := (fun x v => Host.reduce IntOp.andi x v reducesTo_S256x500_S_d0_1 h_S_) main_v2 main_c
  let main_v4 : FVec F S500x256x256 .f32 := Host.absf main_arg1
  let main_cst_0 : FVec F S_ .f32 := constant S_ .f32 0x7F800000#32
  let main_v5 : FVec F S500x256x256 .f32 := broadcastInDim S500x256x256 ![] bcast_S_S500x256x256 main_cst_0
  let main_v6 : IVec S500x256x256 1 := cmpf .olt main_v4 main_v5
  let main_c_1 : IVec S_ 1 := constantI S_ 1 1#1
  let main_v7 : IVec S_ 1 := (fun x v => Host.reduce IntOp.andi x v reducesTo_S500x256x256_S_d0_1_2 h_S_) main_v6 main_c_1
  let main_v8 : IVec S_ 1 := andi main_v3 main_v7
  main_v8
-- ==== Kernel.lean ====
abbrev S256x500 : Shape := ⟨2, ![256, 500]⟩
abbrev S500x256x256 : Shape := ⟨3, ![500, 256, 256]⟩
abbrev S500x256 : Shape := ⟨2, ![500, 256]⟩
abbrev S1x256 : Shape := ⟨2, ![1, 256]⟩
abbrev S64x128 : Shape := ⟨2, ![64, 128]⟩
abbrev S64x128x256 : Shape := ⟨3, ![64, 128, 256]⟩
abbrev S1x128 : Shape := ⟨2, ![1, 128]⟩
abbrev S128 : Shape := ⟨1, ![128]⟩
abbrev S256 : Shape := ⟨1, ![256]⟩

abbrev nBuf : Space → Nat
  | .hbm => 7
  | .vmem => 10
  | .smem => 0
  | _ => 0

abbrev bufTy : (tb : Table) → Fin (tcTables nBuf tb) → BufTy
  | .hbm, ⟨0, _⟩ => ⟨S256x500, .f32⟩
  | .hbm, ⟨1, _⟩ => ⟨S500x256x256, .f32⟩
  | .hbm, ⟨2, _⟩ => ⟨S256x500, .i32⟩
  | .hbm, ⟨3, _⟩ => ⟨S500x256, .f32⟩
  | .hbm, ⟨4, _⟩ => ⟨S500x256, .i32⟩
  | .hbm, ⟨5, _⟩ => ⟨S1x256, .f32⟩
  | .hbm, ⟨6, _⟩ => ⟨S256, .f32⟩
  | .local _ .vmem, ⟨0, _⟩ => ⟨S64x128, .f32⟩
  | .local _ .vmem, ⟨1, _⟩ => ⟨S64x128, .f32⟩
  | .local _ .vmem, ⟨2, _⟩ => ⟨S64x128, .i32⟩
  | .local _ .vmem, ⟨3, _⟩ => ⟨S64x128, .i32⟩
  | .local _ .vmem, ⟨4, _⟩ => ⟨S64x128x256, .f32⟩
  | .local _ .vmem, ⟨5, _⟩ => ⟨S64x128x256, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | _, _ => ⟨S256x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v88 : BitVec 1 := Scalar.cmpi .eq arg1 c7_i32
  let v89 : BitVec 32 := Scalar.extui v88
  let c0_i32_34 : BitVec 32 := 0#32
  let v90 : BitVec 1 := Scalar.cmpi .ne v89 c0_i32_34
  v90

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S256x500_S500x256_1_0 : S256x500.Transposes [1, 0] S500x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S64x128_d0_w32 : S64x128.Iotas .tc 32 [0]
  inb_S64x128x256_S64x128x256_0_0_0 : ∀ a, (![0, 0, 0] : Fin 3 → Nat) a + S64x128x256.size a ≤ S64x128x256.size a
  h_S64x128x256 : 0 < S64x128x256.numel
  reduces_S64x128x256_S64x128 : S64x128x256.Reduces [2] S64x128
  reduces_S64x128_S128 : S64x128.Reduces [0] S128
  shapeCasts_S128_S1x128 : S128.ShapeCasts S1x128
  shapeCasts_S1x256_S256 : S1x256.ShapeCasts S256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x128.size a < S500x256.size a
  hwx0_0 : ∀ i : grid0.Coords, EltTy.bits .f32 = 32 ∨ (Rect.unit (s := S500x256) (fun a => cc0_transform_0 i a * S64x128.size a) (fun a => (Pipeline.Clip.of (cc0_transform_0 i a) (S64x128.size a) (S500x256.size a)).extent (S64x128.size a)) fun a => Pipeline.Clip.inb (Pipeline.Clip.ok_of (hstart0_0 i a))).WholeWords (EltTy.packing .f32)
  hwxs0_0 : ∀ i : grid0.Coords, EltTy.bits .f32 = 32 ∨ (Rect.unit (s := S64x128) (fun _ => 0) (fun a => (Pipeline.Clip.of (cc0_transform_0 i a) (S64x128.size a) (S500x256.size a)).extent (S64x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x128.size a < S500x256.size a
  hwx0_1 : ∀ i : grid0.Coords, EltTy.bits .i32 = 32 ∨ (Rect.unit (s := S500x256) (fun a => cc0_transform_1 i a * S64x128.size a) (fun a => (Pipeline.Clip.of (cc0_transform_1 i a) (S64x128.size a) (S500x256.size a)).extent (S64x128.size a)) fun a => Pipeline.Clip.inb (Pipeline.Clip.ok_of (hstart0_1 i a))).WholeWords (EltTy.packing .i32)
  hwxs0_1 : ∀ i : grid0.Coords, EltTy.bits .i32 = 32 ∨ (Rect.unit (s := S64x128) (fun _ => 0) (fun a => (Pipeline.Clip.of (cc0_transform_1 i a) (S64x128.size a) (S500x256.size a)).extent (S64x128.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S64x128x256.size a < S500x256x256.size a
  hwx0_2 : ∀ i : grid0.Coords, EltTy.bits .f32 = 32 ∨ (Rect.unit (s := S500x256x256) (fun a => cc0_transform_2 i a * S64x128x256.size a) (fun a => (Pipeline.Clip.of (cc0_transform_2 i a) (S64x128x256.size a) (S500x256x256.size a)).extent (S64x128x256.size a)) fun a => Pipeline.Clip.inb (Pipeline.Clip.ok_of (hstart0_2 i a))).WholeWords (EltTy.packing .f32)
  hwxs0_2 : ∀ i : grid0.Coords, EltTy.bits .f32 = 32 ∨ (Rect.unit (s := S64x128x256) (fun _ => 0) (fun a => (Pipeline.Clip.of (cc0_transform_2 i a) (S64x128x256.size a) (S500x256x256.size a)).extent (S64x128x256.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x256.size a
  hwx0_3 : ∀ i : grid0.Coords, EltTy.bits .f32 = 32 ∨ (Rect.block (s := S1x256) S1x128.size (cc0_transform_3 i) (hinb0_3 i)).WholeWords (EltTy.packing .f32)

variable [Facts₀]

abbrev win0_0 : Pipeline.Window sig grid0 :=
  Pipeline.Window.ofSpecClip (Memref.whole main_v0) S64x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S64x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg1) S64x128x256.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v2) S1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x500 : Shape := ⟨2, ![256, 500]⟩
abbrev S500x256x256 : Shape := ⟨3, ![500, 256, 256]⟩
abbrev S_ : Shape := ⟨0, ![]⟩
abbrev S256 : Shape := ⟨1, ![256]⟩
abbrev S256x500x256 : Shape := ⟨3, ![256, 500, 256]⟩

abbrev nBuf : Space → Nat
  | .hbm => 76
  | .vmem => 0
  | .smem => 0
  | _ => 0

abbrev bufTy : (tb : Table) → Fin (tcTables nBuf tb) → BufTy
  | .hbm, ⟨0, _⟩ => ⟨S256x500, .f32⟩
  | .hbm, ⟨1, _⟩ => ⟨S500x256x256, .f32⟩
  | .hbm, ⟨2, _⟩ => ⟨S256x500, .i32⟩
  | .hbm, ⟨3, _⟩ => ⟨S256x500, .f32⟩
  | .hbm, ⟨4, _⟩ => ⟨S256x500, .f32⟩
  | .hbm, ⟨5, _⟩ => ⟨S_, .f32⟩
  | .hbm, ⟨6, _⟩ => ⟨S256x500, .f32⟩
  | .hbm, ⟨7, _⟩ => ⟨S256x500, .f32⟩
  | .hbm, ⟨8, _⟩ => ⟨S256x500, .f32⟩
  | .hbm, ⟨9, _⟩ => ⟨S256x500, .f32⟩
  | .hbm, ⟨10, _⟩ => ⟨S256x500, .i1⟩
  | .hbm, ⟨11, _⟩ => ⟨S256x500, .f32⟩
  | .hbm, ⟨12, _⟩ => ⟨S256x500, .f32⟩
  | .hbm, ⟨13, _⟩ => ⟨S256x500, .f32⟩
  | .hbm, ⟨14, _⟩ => ⟨S256x500, .f32⟩
  | .hbm, ⟨15, _⟩ => ⟨S256x500, .f32⟩
  | .hbm, ⟨16, _⟩ => ⟨S256x500, .f32⟩
  | .hbm, ⟨17, _⟩ => ⟨S256x500, .f32⟩
  | .hbm, ⟨18, _⟩ => ⟨S256x500, .f32⟩
  | .hbm, ⟨19, _⟩ => ⟨S256x500, .f32⟩
  | .hbm, ⟨20, _⟩ => ⟨S256x500, .f32⟩
  | .hbm, ⟨21, _⟩ => ⟨S_, .f32⟩
  | .hbm, ⟨22, _⟩ => ⟨S256x500, .f32⟩
  | .hbm, ⟨23, _⟩ => ⟨S256x500, .f32⟩
  | .hbm, ⟨24, _⟩ => ⟨S256x500, .f32⟩
  | .hbm, ⟨25, _⟩ => ⟨S256x500, .f32⟩
  | .hbm, ⟨26, _⟩ => ⟨S_, .f32⟩
  | .hbm, ⟨27, _⟩ => ⟨S256x500, .f32⟩
  | .hbm, ⟨28, _⟩ => ⟨S256x500, .f32⟩
  | .hbm, ⟨29, _⟩ => ⟨S256x500, .f32⟩
  | .hbm, ⟨30, _⟩ => ⟨S256x500, .f32⟩
  | .hbm, ⟨31, _⟩ => ⟨S256x500, .i1⟩
  | .hbm, ⟨32, _⟩ => ⟨S256x500, .f32⟩
  | .hbm, ⟨33, _⟩ => ⟨S256x500, .f32⟩
  | .hbm, ⟨34, _⟩ => ⟨S256x500, .f32⟩
  | .hbm, ⟨35, _⟩ => ⟨S256x500, .f32⟩
  | .hbm, ⟨36, _⟩ => ⟨S256x500, .f32⟩
  | .hbm, ⟨37, _⟩ => ⟨S256x500, .f32⟩
  | .hbm, ⟨38, _⟩ => ⟨S256x500, .f32⟩
  | .hbm, ⟨39, _⟩ => ⟨S256x500, .f32⟩
  | .hbm, ⟨40, _⟩ => ⟨S256x500, .f32⟩
  | .hbm, ⟨41, _⟩ => ⟨S256x500, .f32⟩
  | .hbm, ⟨42, _⟩ => ⟨S256x500, .f32⟩
  | .hbm, ⟨43, _⟩ => ⟨S256x500, .f32⟩
  | .hbm, ⟨44, _⟩ => ⟨S_, .f32⟩
  | .hbm, ⟨45, _⟩ => ⟨S256, .f32⟩
  | .hbm, ⟨46, _⟩ => ⟨S256x500x256, .f32⟩
  | .hbm, ⟨47, _⟩ => ⟨S_, .f32⟩
  | .hbm, ⟨48, _⟩ => ⟨S256x500, .f32⟩
  | .hbm, ⟨49, _⟩ => ⟨S256x500, .f32⟩
  | .hbm, ⟨50, _⟩ => ⟨S256x500, .f32⟩
  | .hbm, ⟨51, _⟩ => ⟨S_, .f32⟩
  | .hbm, ⟨52, _⟩ => ⟨S256x500, .f32⟩
  | .hbm, ⟨53, _⟩ => ⟨S256x500, .f32⟩
  | .hbm, ⟨54, _⟩ => ⟨S_, .f32⟩
  | .hbm, ⟨55, _⟩ => ⟨S256x500, .f32⟩
  | .hbm, ⟨56, _⟩ => ⟨S256x500, .f32⟩
  | .hbm, ⟨57, _⟩ => ⟨S_, .f32⟩
  | .hbm, ⟨58, _⟩ => ⟨S256x500, .f32⟩
  | .hbm, ⟨59, _⟩ => ⟨S256x500, .f32⟩
  | .hbm, ⟨60, _⟩ => ⟨S_, .f32⟩
  | .hbm, ⟨61, _⟩ => ⟨S256x500, .f32⟩
  | .hbm, ⟨62, _⟩ => ⟨S256x500, .f32⟩
  | .hbm, ⟨63, _⟩ => ⟨S_, .i32⟩
  | .hbm, ⟨64, _⟩ => ⟨S256x500, .i32⟩
  | .hbm, ⟨65, _⟩ => ⟨S256x500, .i1⟩
  | .hbm, ⟨66, _⟩ => ⟨S_, .f32⟩
  | .hbm, ⟨67, _⟩ => ⟨S_, .f32⟩
  | .hbm, ⟨68, _⟩ => ⟨S256x500, .f32⟩
  | .hbm, ⟨69, _⟩ => ⟨S256x500, .f32⟩
  | .hbm, ⟨70, _⟩ => ⟨S_, .f32⟩
  | .hbm, ⟨71, _⟩ => ⟨S256, .f32⟩
  | .hbm, ⟨72, _⟩ => ⟨S_, .f32⟩
  | .hbm, ⟨73, _⟩ => ⟨S256, .f32⟩
  | .hbm, ⟨74, _⟩ => ⟨S256, .f32⟩
  | .hbm, ⟨75, _⟩ => ⟨S256, .f32⟩
  | _, _ => ⟨S256x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_call1_v0 : Ref sig .tc := ⟨.hbm, 25, rfl⟩
abbrev main_call1_call0_cst : Ref sig .tc := ⟨.hbm, 26, rfl⟩
abbrev main_call1_call0_v0 : Ref sig .tc := ⟨.hbm, 27, rfl⟩
abbrev main_call1_call0_v1 : Ref sig .tc := ⟨.hbm, 28, rfl⟩
abbrev main_call1_call0_v2 : Ref sig .tc := ⟨.hbm, 29, rfl⟩
abbrev main_call1_call0_v3 : Ref sig .tc := ⟨.hbm, 30, rfl⟩
abbrev main_call1_call0_v4 : Ref sig .tc := ⟨.hbm, 31, rfl⟩
abbrev main_call1_call0_v5 : Ref sig .tc := ⟨.hbm, 32, rfl⟩
abbrev main_call1_call0_v6 : Ref sig .tc := ⟨.hbm, 33, rfl⟩
abbrev main_call1_call0_v7 : Ref sig .tc := ⟨.hbm, 34, rfl⟩
abbrev main_call1_call0_v8 : Ref sig .tc := ⟨.hbm, 35, rfl⟩
abbrev main_call1_call0_v9 : Ref sig .tc := ⟨.hbm, 36, rfl⟩
abbrev main_call1_call0_v10 : Ref sig .tc := ⟨.hbm, 37, rfl⟩
abbrev main_call1_call0_v11 : Ref sig .tc := ⟨.hbm, 38, rfl⟩
abbrev main_call1_v1 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_cst_0 : Ref sig .tc := ⟨.hbm, 44, rfl⟩
abbrev main_v10 : Ref sig .tc := ⟨.hbm, 45, rfl⟩
abbrev main_v11 : Ref sig .tc := ⟨.hbm, 46, rfl⟩
abbrev main_cst_1 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_cst_2 : Ref sig .tc := ⟨.hbm, 51, rfl⟩
abbrev main_v15 : Ref sig .tc := ⟨.hbm, 52, rfl⟩
abbrev main_v16 : Ref sig .tc := ⟨.hbm, 53, rfl⟩
abbrev main_cst_3 : Ref sig .tc := ⟨.hbm, 54, rfl⟩
abbrev main_v17 : Ref sig .tc := ⟨.hbm, 55, rfl⟩
abbrev main_v18 : Ref sig .tc := ⟨.hbm, 56, rfl⟩
abbrev main_cst_4 : Ref sig .tc := ⟨.hbm, 57, rfl⟩
abbrev main_v19 : Ref sig .tc := ⟨.hbm, 58, rfl⟩
abbrev main_v20 : Ref sig .tc := ⟨.hbm, 59, rfl⟩
abbrev main_cst_5 : Ref sig .tc := ⟨.hbm, 60, rfl⟩
abbrev main_v21 : Ref sig .tc := ⟨.hbm, 61, rfl⟩
abbrev main_v22 : Ref sig .tc := ⟨.hbm, 62, rfl⟩
abbrev main_c : Ref sig .tc := ⟨.hbm, 63, rfl⟩
abbrev main_v23 : Ref sig .tc := ⟨.hbm, 64, rfl⟩
abbrev main_v24 : Ref sig .tc := ⟨.hbm, 65, rfl⟩
abbrev main_cst_6 : Ref sig .tc := ⟨.hbm, 66, rfl⟩
abbrev main_call2_v0 : Ref sig .tc := ⟨.hbm, 67, rfl⟩
abbrev main_call2_v1 : Ref sig .tc := ⟨.hbm, 68, rfl⟩
abbrev main_v25 : Ref sig .tc := ⟨.hbm, 69, rfl⟩
abbrev main_cst_7 : Ref sig .tc := ⟨.hbm, 70, rfl⟩
abbrev main_v26 : Ref sig .tc := ⟨.hbm, 71, rfl⟩
abbrev main_cst_8 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩

abbrev nD : Nat := 1
abbrev τ : Topo := Topo.v7x

variable {F : FTy → Type} [FloatOps F]

class Facts₀ : Prop where
  bcast_S_S256x500 : S_.BroadcastsInDim S256x500 (![] : Fin 0 → Fin S256x500.rank)
  reducesTo_S256x500_S256_d1 : S256x500.ReducesTo [1] S256
  h_S_ : 0 < S_.numel
  transposes_S500x256x256_S256x500x256_1_0_2 : S500x256x256.Transposes [1, 0, 2] S256x500x256
  reducesTo_S256x500x256_S256x500_d2 : S256x500x256.ReducesTo [2] S256x500
  bcast_S_S256 : S_.BroadcastsInDim S256 (![] : Fin 0 → Fin S256.rank)

variable [Facts₀]

class Facts : Prop extends Facts₀ where

variable [Facts]
-- ==== Proof.StepBits.lean ====
/-
  What one grid point does, as pure functions of what the body reads: with `X0`, `X1`, `X2` the contents of the three
  input staging buffers (logits block, label block, feature block), `S0`, `S1` the two accumulators as the point finds
  them and `O` the output block's buffer as it finds it. At the first class-block of a sample-block the accumulators
  restart from zero; every point adds its masked column sums; the last class-block writes their combination out.
-/
import proofs.«169059_j30399778521687_1_alg».proof.Proof.Gen.Kernel.Skeleton

set_option synthInstance.maxSize 4096

noncomputable section

namespace Cert.Kernel.Step

open Idealize.ShloMosaic Idealize.SL.Sem Cert.Kernel Cert.Kernel.Gen

variable {F : FTy → Type} [FloatOps F]

/-- The point is the first class-block of its sample-block (grid coordinate 1 is zero), as the body's chain decides it. -/
abbrev isFirst (i : grid0.Coords) : Prop :=
  Scalar.cmpi .ne (Scalar.extui (Scalar.cmpi .eq (BitVec.ofNat 32 (i 1).val) 0#32)) 0#32 = 1#1
/-- The point is the last class-block of its sample-block (grid coordinate 1 is seven). -/
abbrev isLast (i : grid0.Coords) : Prop := k0_cond2 i = 1#1

/-- The cross-entropy accumulator the point adds to: zero at a first point, else what it found. -/
def acc0In (i : grid0.Coords) (S0 : Vec F S1x128 .f32) : Vec F S1x128 .f32 := if isFirst i then k0_pay4 (F := F) else S0
/-- The rejection accumulator the point adds to. -/
def acc1In (i : grid0.Coords) (S1 : Vec F S1x128 .f32) : Vec F S1x128 .f32 := if isFirst i then k0_pay5 (F := F) else S1

/-- The cross-entropy accumulator after the point. -/
def acc0Out (i : grid0.Coords) (X0 : Vec F S64x128 .f32) (X1 : Vec F S64x128 .i32) (S0 : Vec F S1x128 .f32) : Vec F S1x128 .f32 :=
  k0_pay1 (k0_pay14 (k0_pay8 i) (k0_pay9 X0 X1) (k0_pay10 X1) (k0_pay11 X0) (Scalar.ofBits .f32 0x00000000#32) (k0_pay12 X0) (acc0In i S0))
/-- The rejection accumulator after the point. -/
def acc1Out (i : grid0.Coords) (X1 : Vec F S64x128 .i32) (X2 : Vec F S64x128x256 .f32) (S1 : Vec F S1x128 .f32) : Vec F S1x128 .f32 :=
  k0_pay2 (k0_pay13 (k0_pay7 X1) (k0_pay8 i) X2) (acc1In i S1)
/-- The output block's buffer after the point: written at a last point, untouched elsewhere. -/
def outOut (i : grid0.Coords) (X0 : Vec F S64x128 .f32) (X1 : Vec F S64x128 .i32) (X2 : Vec F S64x128x256 .f32)
    (S0 S1 O : Vec F S1x128 .f32) : Vec F S1x128 .f32 :=
  if isLast i then k0_pay3 (acc0Out i X0 X1 S0) (acc1Out i X1 X2 S1) else O

end Cert.Kernel.Step

end
-- ==== Proof.BodyBits.lean ====
/-
  One grid point of the kernel body as a Hoare triple: on six whole buffers — the three input staging buffers at
  contents X0, X1, X2, the output block's staging buffer at O, the two accumulators at S0, S1 — the body runs without
  fault and hands back the inputs untouched, the accumulators advanced by the point's masked column sums
  (`Step.acc0Out`, `Step.acc1Out`) and the output buffer written at a last point and untouched elsewhere (`Step.outOut`).
-/
import proofs.«169059_j30399778521687_1_alg».proof.Proof.StepBits
import proofs.«169059_j30399778521687_1_alg».proof.Proof.Gen.Kernel.Launch
import proofs.«169059_j30399778521687_1_alg».proof.Proof.Gen.Kernel.Points
import Idealize.ShloMosaic.Lib.Pipeline.FrameBody
import Idealize.ShloMosaic.Lib.Tactic
import Idealize.ShloMosaic.Lib.Pipeline.Value

set_option maxRecDepth 16384

noncomputable section

namespace Cert.Kernel.Body

open Cert.Kernel Cert.Kernel.Gen Cert.Kernel.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- After a sequence of stores the last of which covers the whole shape (offset zero, the shape's own sizes), a view
    reads that last store's payload, whatever the earlier stores and the prior contents were. -/
theorem read_writes_cons_whole {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

/-- A load of the whole shape after such a sequence of stores reads the last store's payload. -/
theorem readCov_cons_whole {sig' : RefSig} {κ : Kind} {sp : Space} {S : Shape} {e : EltTy}
    (v : View sig' κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld v _ _ (fun y => ⟨_, List.mem_cons_self, View.mem_set_unit_zero h inb y⟩),
    View.canon_cons_unit_zero h inb w L, View.ld_unit_zero h inb]

theorem sound_body (c : Dev nD) (i : grid0.Coords)
    (arg2 : Memref sig .tc .vmem S64x128 .f32) (harg2 : arg2.IsWhole) (arg3 : Memref sig .tc .vmem S64x128 .i32) (harg3 : arg3.IsWhole)
    (arg4 : Memref sig .tc .vmem S64x128x256 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S1x128 .f32) (harg7 : arg7.IsWhole)
    (X0 : Vec F S64x128 .f32) (X1 : Vec F S64x128 .i32) (X2 : Vec F S64x128x256 .f32) (O S0 S1 : Vec F S1x128 .f32)
    (E : Set ℕ) (K : PUnit → sProp 𝕄) :
    iprop(owns (c : Thread nD τ) arg2 fullShare X0 ∗ owns (c : Thread nD τ) arg3 fullShare X1 ∗ owns (c : Thread nD τ) arg4 fullShare X2
        ∗ owns (c : Thread nD τ) arg5 fullShare O ∗ owns (c : Thread nD τ) arg6 fullShare S0 ∗ owns (c : Thread nD τ) arg7 fullShare S1
        ∗ (iprop(owns (c : Thread nD τ) arg2 fullShare X0 ∗ owns (c : Thread nD τ) arg3 fullShare X1 ∗ owns (c : Thread nD τ) arg4 fullShare X2
            ∗ owns (c : Thread nD τ) arg5 fullShare (outOut i X0 X1 X2 S0 S1 O)
            ∗ owns (c : Thread nD τ) arg6 fullShare (acc0Out i X0 X1 S0) ∗ owns (c : Thread nD τ) arg7 fullShare (acc1Out i X1 X2 S1)) -∗ K ⟨⟩))
      ⊢ wp frame (wpE (defs₀ (F := F)) Variants.none c none) E
          (cc0__kernel i arg2 harg2 arg3 harg3 arg4 harg4 arg5 harg5 arg6 harg6 arg7 harg7) K := by
  -- Every access is of a whole buffer (offset zero, the buffer's own sizes): a load reads the contents, a store replaces
  -- them. The two conditionals are decided by the point: at a first point the accumulators are reset before they are
  -- read, so what is added to is the reset value; elsewhere it is what the point found. At a last point the output
  -- buffer is stored from the two accumulators just written; elsewhere it is not touched. In each of the four cases
  -- the three inputs come back as they were, and what each written buffer reads afterwards is the payload of the last
  -- store into it, which is the step function's value once its own conditionals are decided the same way.
  have hz2 : (![0, 0] : Fin 2 → Nat) = fun _ => 0 := funext fun a => by fin_cases a <;> rfl
  have hz3 : (![0, 0, 0] : Fin 3 → Nat) = fun _ => 0 := funext fun a => by fin_cases a <;> rfl
  by_cases h1 : isFirst i <;> by_cases h2 : isLast i <;>
  ( simp only [cc0__kernel_eq_skeleton]; unfold cc0__kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf5; obtain rfl := harg6.eq_unread hf6; obtain rfl := harg7.eq_unread hf7
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; swap; iexact H5
      ipureintro; sl_unfold_words; dsimp only
      simp only [View.readAt_eq_ld, harg2.read_unread, harg3.read_unread, harg4.read_unread, harg5.read_unread, harg6.read_unread,
        harg7.read_unread, View.ld_unit_zero (S := S64x128) hz2, View.ld_unit_zero (S := S64x128x256) hz3,
        View.ld_unit_zero (S := S1x128) hz2, readCov_cons_whole (S := S1x128) _ hz2, read_writes_cons_whole (S := S1x128) _ _ hz2]
      unfold outOut acc0Out acc1Out acc0In acc1In
      first | simp only [if_pos h1] | simp only [if_neg h1]
      try (first | simp only [if_pos h2] | simp only [if_neg h2])
      try rfl
    isplitl [H6]
    · iexists _; isplitr; swap; iexact H6
      ipureintro; sl_unfold_words; dsimp only
      simp only [View.readAt_eq_ld, harg2.read_unread, harg3.read_unread, harg4.read_unread, harg5.read_unread, harg6.read_unread,
        harg7.read_unread, View.ld_unit_zero (S := S64x128) hz2, View.ld_unit_zero (S := S64x128x256) hz3,
        View.ld_unit_zero (S := S1x128) hz2, readCov_cons_whole (S := S1x128) _ hz2, read_writes_cons_whole (S := S1x128) _ _ hz2]
      unfold acc0Out acc0In
      first | simp only [if_pos h1] | simp only [if_neg h1]
      try rfl
    · iexists _; isplitr; swap; iexact H7
      ipureintro; sl_unfold_words; dsimp only
      simp only [View.readAt_eq_ld, harg2.read_unread, harg3.read_unread, harg4.read_unread, harg5.read_unread, harg6.read_unread,
        harg7.read_unread, View.ld_unit_zero (S := S64x128) hz2, View.ld_unit_zero (S := S64x128x256) hz3,
        View.ld_unit_zero (S := S1x128) hz2, readCov_cons_whole (S := S1x128) _ hz2, read_writes_cons_whole (S := S1x128) _ _ hz2]
      unfold acc1Out acc1In
      first | simp only [if_pos h1] | simp only [if_neg h1]
      try rfl )

end Cert.Kernel.Body

end
-- ==== Proof.FrameBits.lean ====
/-
  The word-level kernel's frame: under the precondition every weakly fair execution of its @main terminates without a
  fault and the three argument arrays end as they began. Nothing is claimed of what the buffers hold in between: every
  window's staging contents are left unnamed, the accumulators are held at some contents.
-/
import proofs.«169059_j30399778521687_1_alg».proof.Defs
import proofs.«169059_j30399778521687_1_alg».proof.Proof.BodyBits
import proofs.«169059_j30399778521687_1_alg».proof.Proof.Gen.Kernel.Frame
import proofs.«169059_j30399778521687_1_alg».proof.Proof.Gen.Pre_finite_inputs
import Idealize.ShloMosaic.Adequacy
import Idealize.ShloMosaic.Init

set_option maxRecDepth 16384

noncomputable section

namespace Cert.Kernel.FrameBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section AnyFloat

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on core `c`, relational: the arrays as the region finds them; of what the body leaves in any
    window's staging buffer nothing is said (the relation holds of any contents found and left); between points the two
    accumulators at some contents and the generator register at some state; nothing owed; full shares. -/
def rdat (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

/-- The region invariant spelled out: each accumulator whole at some contents, the generator register at some state. -/
theorem PhiA_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)) ∗ (∃ r, prngReg c r)) := by
  unfold Pipeline.ΦA; rw [scopedRest0_eq]; simp only [owns_whole]; try rfl

/-- The body obligation of the relational data: at every point, whatever the four current staging buffers and the two
    accumulators hold, the body runs and hands all six back at some contents. -/
theorem body_obligation (c : Dev nD) :
    (rdat m c).BodyObligation (defs₀ (F := F)) Variants.none () Set.univ := fun t Y _ => by
  rw [bigSep_W0, bigSep_W0]
  rw [show (rdat m c).owesAt () t.succ = (rdat m c).owesAt () t.castSucc from rfl]
  rw [show (rdat m c).Φ t.castSucc = Pipeline.ΦA spec0 c from rfl, show (rdat m c).Φ t.succ = Pipeline.ΦA spec0 c from rfl,
    PhiA_eq]
  iintro ⟨⟨⟨⟨%s0, HS0⟩, ⟨%s1, HS1⟩⟩, Hg⟩, Ho, H0, H1, H2, H3⟩
  iapply (Body.sound_body c (grid0.coords t) _ _ _ _ _ _ _ _ _ _ _ _ (Y 0) (Y 1) (Y 2) (Y 3) s0 s1 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexists _; iexact HS0
      · iexists _; iexact HS1
    · iexact Hg
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  · iexists (Step.outOut (grid0.coords t) (Y 0) (Y 1) (Y 2) s0 s1 (Y 3)); isplitr; · ipureintro; trivial
    iexact H3

/-- The one line after the region writes only its own result buffer. -/
theorem sfx_T : ∀ ops ∈ ([hostOps1] : List (List (HloOp τ sig (Elt F)))), ∀ op ∈ ops, ∀ b : Ref sig .tc,
    Proc.devRef .tc b ∈ op.writes → b ∈ ({main_v3} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  exact Finset.mem_singleton.mpr (Proc.devRef_injective (τ := τ) _ hb)

-- matching the launch theorem's conclusion against this statement unfolds plain definitions inside types
set_option backward.isDefEq.respectTransparency.types false in
/-- From any memory with zero counters every weakly fair execution of @main terminates, every input array of the
    pipeline ends at its region-entry contents and every buffer that bypasses the region, the last line's result
    apart, at its region-entry contents. -/
theorem run_main : θ_run defs (onTc (τ := τ) (main (F := F))) (s₀ m ρ)
    (Pipeline.RDat.FramePostR cfg0 (rdat m) ({main_v3} : Finset (Ref sig .tc)) (V m)) :=
  Pipeline.RDat.θ_run_frame_around_T cfgs (0 : Fin 1) launch0 defs₀ Variants.none (rdat m) {main_v3} m ρ main
    (hbody := body_obligation m)
    (hshare := fun c w => by unfold Pipeline.RDat.share; split <;> rfl)
    (howed := fun _ _ => rfl) (V₀ := V0 m) (opss := [hostOps1]) (hsub := sfx_sub) (hfresh := sfx_fresh) (hkeep := sfx_keeps)
    (hT := sfx_T) (hmain := hmain m Variants.none) (hA := fun _ _ => rfl) (hΦ := fun _ _ => rfl)

/-- The frame at any float instance: the post read at the three argument arrays. The first and the third bypass the
    region and no line after it writes them; the second is the third window's array, an input, which ends at its entry
    contents; and no line before the region writes any of the three. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_arg0 (Finset.mem_sdiff.mpr ⟨Pipeline.mem_restRefs_of main_arg0 (by decide) (by decide), by decide⟩)).trans
        (V_main_arg0 m c),
      (Pipeline.RDat.FramePostR.arr_in h c 2 rfl).trans (V_main_arg1 m c),
      ((h c).2 main_arg2 (Finset.mem_sdiff.mpr ⟨Pipeline.mem_restRefs_of main_arg2 (by decide) (by decide), by decide⟩)).trans
        (V_main_arg2 m c)⟩) (run_main m ρ)

end AnyFloat

/-- The word-level kernel's frame: the statement of the claim is the generic frame at the bit-exact instance. -/
theorem frame : Cert.frame_Kernel := fun m ρ _ => frame_any (F := Bits) m ρ

end Cert.Kernel.FrameBits

end
-- ==== Proof.Spec.lean ====
/-
  The function both programs compute, stated once over literal shapes and index by index on the extended reals.

  Per sample `b` and class `c`, with `y` the label read as a real:
    softplus z   = max z 0 + log (1 + exp (-|z|))
    logsig x     = -(softplus (-x))
    bce x y      = -(y · logsig x + (1 - y) · logsig (-x))
    rej m l      = max (1 / (1 + exp (-m)) - κ) 0   if the label word is zero, else 0     (κ the margin's f32 word)
  and the result at `b` is  Σ_c bce (x b c) (l b c)  +  Σ_c rej (max_d w c b d) (l b c),  both sums over the 500 classes.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev SBC : Shape := ⟨2, ![256, 500]⟩
abbrev SCBD : Shape := ⟨3, ![500, 256, 256]⟩
abbrev SB : Shape := ⟨1, ![256]⟩

/-- The start value of the maximum over the feature axis: the f32 word of -∞. -/
abbrev negInf : EReal := FloatOps.ofBits (F := Ideal) .f32 0xFF800000#32
/-- The rejection margin, as the f32 word both programs carry. -/
abbrev margin : EReal := FloatOps.ofBits (F := Ideal) .f32 0x3E99999A#32

/-- `log (1 + e^z)` in the overflow-safe form both programs use. -/
def softplus (z : EReal) : EReal := max z 0 + Ideal.log1p (Ideal.exp (-(max z (-z))))
/-- `log σ(x) = -softplus (-x)`. -/
def logsig (x : EReal) : EReal := -(softplus (-x))
/-- A label word read as a real number (signed). -/
def lab (l : BitVec 32) : EReal := ((l.toInt : ℝ) : EReal)
/-- Binary cross-entropy with logits at one (sample, class) pair. -/
def bce (x : EReal) (l : BitVec 32) : EReal := -(lab l * logsig x + (1 - lab l) * logsig (-x))
/-- The rejection term at one pair: the margin-clipped sigmoid of the row maximum where the label is zero. -/
def rej (mx : EReal) (l : BitVec 32) : EReal := if l = 0#32 then max (Ideal.logistic mx - margin) 0 else 0
/-- The maximum over the feature axis of `w[c, b, ·]`, folded from -∞. -/
def rowMax (w : SCBD.Idx → EReal) (c : Fin 500) (b : Fin 256) : EReal :=
  (Finset.univ : Finset (Fin 256)).fold max negInf (fun d => w (ix3 c b d))

/-- The per-sample loss: the two sums over the classes. -/
def G (x : SBC.Idx → EReal) (w : SCBD.Idx → EReal) (l : SBC.Idx → BitVec 32) : SB.Idx → EReal :=
  fun j => (∑ c : Fin 500, bce (x (ix2 (j 0) c)) (l (ix2 (j 0) c)))
    + ∑ c : Fin 500, rej (rowMax w c (j 0)) (l (ix2 (j 0) c))

end Cert.Spec

end
-- ==== Proof.IdealData.lean ====
/-
  The arrays the region reads (the transposed logits and labels, the feature array), the running column sums the two
  accumulators hold between grid points, and how a fetched block — cut at the arrays' 500th row — reads at a row that
  lies inside the array: the array's entry at (64·k + r, 128·b + q) for the point (b, k).
-/
import proofs.«169059_j30399778521687_1_alg».proof.Proof.Spec
import proofs.«169059_j30399778521687_1_alg».proof.Proof.Gen.KernelIdeal.Frame
import Idealize.ShloMosaic.Lib.Pipeline.Value
import Idealize.ShloMosaic.Lib.ValueIdx

set_option maxRecDepth 16384

noncomputable section

open scoped BigOperators

namespace Cert.KernelIdeal.IdealRun

open Cert.KernelIdeal Cert.KernelIdeal.Gen Cert.Spec
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The transposed logits [500, 256], the transposed labels, the features [500, 256, 256], as the region finds them. -/
abbrev xT (c : Dev nD) : Vec Ideal S500x256 .f32 := V m c main_v0
abbrev lT (c : Dev nD) : Vec Ideal S500x256 .i32 := V m c main_v1
abbrev wA (c : Dev nD) : Vec Ideal S500x256x256 .f32 := V m c main_arg1

/-- Total readers: the entry at (class, column) where that lies inside the array. -/
def rdx (c : Dev nD) (cls col : ℕ) : EReal :=
  if h : cls < 500 ∧ col < 256 then xT m c (ix2 ⟨cls, h.1⟩ ⟨col, h.2⟩) else 0
def rdl (c : Dev nD) (cls col : ℕ) : BitVec 32 :=
  if h : cls < 500 ∧ col < 256 then lT m c (ix2 ⟨cls, h.1⟩ ⟨col, h.2⟩) else 0#32
def rdw (c : Dev nD) (cls col : ℕ) (d : Fin 256) : EReal :=
  if h : cls < 500 ∧ col < 256 then wA m c (ix3 ⟨cls, h.1⟩ ⟨col, h.2⟩ d) else 0

/-- The two per-pair terms at (column, class). -/
def termB (c : Dev nD) (col cls : ℕ) : EReal := bce (rdx m c cls col) (rdl m c cls col)
def termR (c : Dev nD) (col cls : ℕ) : EReal :=
  rej ((Finset.univ : Finset (Fin 256)).fold max negInf (fun d => rdw m c cls col d)) (rdl m c cls col)

/-- What the accumulators hold at lane `q` of sample-block `b` once `n` class-blocks have been added. -/
def accB (c : Dev nD) (b n : ℕ) (q : Fin 128) : EReal :=
  ∑ k ∈ Finset.range n, ∑ r : Fin 64, if 64 * k + r.val < 500 then termB m c (128 * b + q.val) (64 * k + r.val) else 0
def accR (c : Dev nD) (b n : ℕ) (q : Fin 128) : EReal :=
  ∑ k ∈ Finset.range n, ∑ r : Fin 64, if 64 * k + r.val < 500 then termR m c (128 * b + q.val) (64 * k + r.val) else 0

theorem accB_zero (c : Dev nD) (b : ℕ) (q : Fin 128) : accB m c b 0 q = 0 := by simp [accB]
theorem accR_zero (c : Dev nD) (b : ℕ) (q : Fin 128) : accR m c b 0 q = 0 := by simp [accR]
theorem accB_succ (c : Dev nD) (b n : ℕ) (q : Fin 128) :
    accB m c b (n + 1) q = accB m c b n q
      + ∑ r : Fin 64, if 64 * n + r.val < 500 then termB m c (128 * b + q.val) (64 * n + r.val) else 0 := by
  unfold accB; rw [Finset.sum_range_succ]
theorem accR_succ (c : Dev nD) (b n : ℕ) (q : Fin 128) :
    accR m c b (n + 1) q = accR m c b n q
      + ∑ r : Fin 64, if 64 * n + r.val < 500 then termR m c (128 * b + q.val) (64 * n + r.val) else 0 := by
  unfold accR; rw [Finset.sum_range_succ]

/-! ## The grid and the windows' geometry, decided over the sixteen points -/

theorem coords_facts : ∀ t : Fin grid0.N, ((grid0.coords t) 0).val = t.val / 8 ∧ ((grid0.coords t) 1).val = t.val % 8 := by
  decide +kernel

theorem geom0 : ∀ t : Fin grid0.N, win0_0.index t 0 = t.val % 8 ∧ win0_0.index t 1 = t.val / 8
    ∧ win0_0.xsize (grid0.coords t) 0 = min 64 (500 - 64 * (t.val % 8)) ∧ win0_0.xsize (grid0.coords t) 1 = 128 := by
  decide +kernel
theorem geom1 : ∀ t : Fin grid0.N, win0_1.index t 0 = t.val % 8 ∧ win0_1.index t 1 = t.val / 8
    ∧ win0_1.xsize (grid0.coords t) 0 = min 64 (500 - 64 * (t.val % 8)) ∧ win0_1.xsize (grid0.coords t) 1 = 128 := by
  decide +kernel
theorem geom2 : ∀ t : Fin grid0.N, win0_2.index t 0 = t.val % 8 ∧ win0_2.index t 1 = t.val / 8 ∧ win0_2.index t 2 = 0
    ∧ win0_2.xsize (grid0.coords t) 0 = min 64 (500 - 64 * (t.val % 8)) ∧ win0_2.xsize (grid0.coords t) 1 = 128
    ∧ win0_2.xsize (grid0.coords t) 2 = 256 := by
  decide +kernel

/-! ## A fetched block read at a row inside the array -/

theorem read0 (c : Dev nD) (t : Fin cfg0.N) (d : S64x128.Idx → EReal) (r : Fin 64) (q : Fin 128)
    (hr : 64 * (t.val % 8) + r.val < 500) :
    win0_0.fill (grid0.coords t) d (iblk m c 0 t) (ix2 r q) = rdx m c (64 * (t.val % 8) + r.val) (128 * (t.val / 8) + q.val) := by
  have hg := geom0 t
  have hmv : win0_0.moved (grid0.coords t) (ix2 r q) = true := by
    rw [Window.moved_iff]; intro a
    match a with
    | ⟨0, _⟩ => show r.val < win0_0.xsize (grid0.coords t) 0; rw [hg.2.2.1]; omega
    | ⟨1, _⟩ => show q.val < win0_0.xsize (grid0.coords t) 1; rw [hg.2.2.2]; exact q.isLt
  unfold Window.fill; rw [dif_pos hmv]
  unfold iblk; rw [View.read_apply]
  have ht : t.val < 16 := lt_of_lt_of_eq t.isLt N_0
  have hq : 128 * (t.val / 8) + q.val < 256 := by have := q.isLt; omega
  unfold rdx; rw [dif_pos ⟨hr, hq⟩]
  show V m c main_v0 (((cfg0.win 0).blk t).view.emb _) = V m c main_v0 _
  refine congrArg (V m c main_v0) ?_
  funext a; apply Fin.ext
  match a with
  | ⟨0, _⟩ =>
    show win0_0.index t 0 * 64 + 1 * r.val = 64 * (t.val % 8) + r.val
    rw [hg.1]; omega
  | ⟨1, _⟩ =>
    show win0_0.index t 1 * 128 + 1 * q.val = 128 * (t.val / 8) + q.val
    rw [hg.2.1]; omega

theorem read1 (c : Dev nD) (t : Fin cfg0.N) (d : S64x128.Idx → BitVec 32) (r : Fin 64) (q : Fin 128)
    (hr : 64 * (t.val % 8) + r.val < 500) :
    win0_1.fill (grid0.coords t) d (iblk m c 1 t) (ix2 r q) = rdl m c (64 * (t.val % 8) + r.val) (128 * (t.val / 8) + q.val) := by
  have hg := geom1 t
  have hmv : win0_1.moved (grid0.coords t) (ix2 r q) = true := by
    rw [Window.moved_iff]; intro a
    match a with
    | ⟨0, _⟩ => show r.val < win0_1.xsize (grid0.coords t) 0; rw [hg.2.2.1]; omega
    | ⟨1, _⟩ => show q.val < win0_1.xsize (grid0.coords t) 1; rw [hg.2.2.2]; exact q.isLt
  unfold Window.fill; rw [dif_pos hmv]
  unfold iblk; rw [View.read_apply]
  have ht : t.val < 16 := lt_of_lt_of_eq t.isLt N_0
  have hq : 128 * (t.val / 8) + q.val < 256 := by have := q.isLt; omega
  unfold rdl; rw [dif_pos ⟨hr, hq⟩]
  show V m c main_v1 (((cfg0.win 1).blk t).view.emb _) = V m c main_v1 _
  refine congrArg (V m c main_v1) ?_
  funext a; apply Fin.ext
  match a with
  | ⟨0, _⟩ =>
    show win0_1.index t 0 * 64 + 1 * r.val = 64 * (t.val % 8) + r.val
    rw [hg.1]; omega
  | ⟨1, _⟩ =>
    show win0_1.index t 1 * 128 + 1 * q.val = 128 * (t.val / 8) + q.val
    rw [hg.2.1]; omega

theorem read2 (c : Dev nD) (t : Fin cfg0.N) (d : S64x128x256.Idx → EReal) (r : Fin 64) (q : Fin 128) (e : Fin 256)
    (hr : 64 * (t.val % 8) + r.val < 500) :
    win0_2.fill (grid0.coords t) d (iblk m c 2 t) (ix3 r q e) = rdw m c (64 * (t.val % 8) + r.val) (128 * (t.val / 8) + q.val) e := by
  have hg := geom2 t
  have hmv : win0_2.moved (grid0.coords t) (ix3 r q e) = true := by
    rw [Window.moved_iff]; intro a
    match a with
    | ⟨0, _⟩ => show r.val < win0_2.xsize (grid0.coords t) 0; rw [hg.2.2.2.1]; omega
    | ⟨1, _⟩ => show q.val < win0_2.xsize (grid0.coords t) 1; rw [hg.2.2.2.2.1]; exact q.isLt
    | ⟨2, _⟩ => show e.val < win0_2.xsize (grid0.coords t) 2; rw [hg.2.2.2.2.2]; exact e.isLt
  unfold Window.fill; rw [dif_pos hmv]
  unfold iblk; rw [View.read_apply]
  have ht : t.val < 16 := lt_of_lt_of_eq t.isLt N_0
  have hq : 128 * (t.val / 8) + q.val < 256 := by have := q.isLt; omega
  unfold rdw; rw [dif_pos ⟨hr, hq⟩]
  show V m c main_arg1 (((cfg0.win 2).blk t).view.emb _) = V m c main_arg1 _
  refine congrArg (V m c main_arg1) ?_
  funext a; apply Fin.ext
  match a with
  | ⟨0, _⟩ =>
    show win0_2.index t 0 * 64 + 1 * r.val = 64 * (t.val % 8) + r.val
    rw [hg.1]; omega
  | ⟨1, _⟩ =>
    show win0_2.index t 1 * 128 + 1 * q.val = 128 * (t.val / 8) + q.val
    rw [hg.2.1]; omega
  | ⟨2, _⟩ =>
    show win0_2.index t 2 * 256 + 1 * e.val = e.val
    rw [hg.2.2.1]; omega

end Cert.KernelIdeal.IdealRun

end
-- ==== Proof.StepIdeal.lean ====
/-
  What one grid point does, as pure functions of what the body reads: with `X0`, `X1`, `X2` the contents of the three
  input staging buffers (logits block, label block, feature block), `S0`, `S1` the two accumulators as the point finds
  them and `O` the output block's buffer as it finds it. At the first class-block of a sample-block the accumulators
  restart from zero; every point adds its masked column sums; the last class-block writes their combination out.
-/
import proofs.«169059_j30399778521687_1_alg».proof.Proof.Gen.KernelIdeal.Skeleton

set_option synthInstance.maxSize 4096

noncomputable section

namespace Cert.KernelIdeal.Step

open Idealize.ShloMosaic Idealize.SL.Sem Cert.KernelIdeal Cert.KernelIdeal.Gen

variable {F : FTy → Type} [FloatOps F]

/-- The point is the first class-block of its sample-block (grid coordinate 1 is zero), as the body's chain decides it. -/
abbrev isFirst (i : grid0.Coords) : Prop :=
  Scalar.cmpi .ne (Scalar.extui (Scalar.cmpi .eq (BitVec.ofNat 32 (i 1).val) 0#32)) 0#32 = 1#1
/-- The point is the last class-block of its sample-block (grid coordinate 1 is seven). -/
abbrev isLast (i : grid0.Coords) : Prop := k0_cond2 i = 1#1

/-- The cross-entropy accumulator the point adds to: zero at a first point, else what it found. -/
def acc0In (i : grid0.Coords) (S0 : Vec F S1x128 .f32) : Vec F S1x128 .f32 := if isFirst i then k0_pay4 (F := F) else S0
/-- The rejection accumulator the point adds to. -/
def acc1In (i : grid0.Coords) (S1 : Vec F S1x128 .f32) : Vec F S1x128 .f32 := if isFirst i then k0_pay5 (F := F) else S1

/-- The cross-entropy accumulator after the point. -/
def acc0Out (i : grid0.Coords) (X0 : Vec F S64x128 .f32) (X1 : Vec F S64x128 .i32) (S0 : Vec F S1x128 .f32) : Vec F S1x128 .f32 :=
  k0_pay1 (k0_pay14 (k0_pay8 i) (k0_pay9 X0 X1) (k0_pay10 X1) (k0_pay11 X0) (Scalar.ofBits .f32 0x00000000#32) (k0_pay12 X0) (acc0In i S0))
/-- The rejection accumulator after the point. -/
def acc1Out (i : grid0.Coords) (X1 : Vec F S64x128 .i32) (X2 : Vec F S64x128x256 .f32) (S1 : Vec F S1x128 .f32) : Vec F S1x128 .f32 :=
  k0_pay2 (k0_pay13 (k0_pay7 X1) (k0_pay8 i) X2) (acc1In i S1)
/-- The output block's buffer after the point: written at a last point, untouched elsewhere. -/
def outOut (i : grid0.Coords) (X0 : Vec F S64x128 .f32) (X1 : Vec F S64x128 .i32) (X2 : Vec F S64x128x256 .f32)
    (S0 S1 O : Vec F S1x128 .f32) : Vec F S1x128 .f32 :=
  if isLast i then k0_pay3 (acc0Out i X0 X1 S0) (acc1Out i X1 X2 S1) else O

end Cert.KernelIdeal.Step

end
-- ==== Proof.BodyIdeal.lean ====
/-
  One grid point of the kernel body as a Hoare triple: on six whole buffers — the three input staging buffers at
  contents X0, X1, X2, the output block's staging buffer at O, the two accumulators at S0, S1 — the body runs without
  fault and hands back the inputs untouched, the accumulators advanced by the point's masked column sums
  (`Step.acc0Out`, `Step.acc1Out`) and the output buffer written at a last point and untouched elsewhere (`Step.outOut`).
-/
import proofs.«169059_j30399778521687_1_alg».proof.Proof.StepIdeal
import proofs.«169059_j30399778521687_1_alg».proof.Proof.Gen.KernelIdeal.Launch
import proofs.«169059_j30399778521687_1_alg».proof.Proof.Gen.KernelIdeal.Points
import Idealize.ShloMosaic.Lib.Pipeline.FrameBody
import Idealize.ShloMosaic.Lib.Tactic
import Idealize.ShloMosaic.Lib.Pipeline.Value

set_option maxRecDepth 16384

noncomputable section

namespace Cert.KernelIdeal.Body

open Cert.KernelIdeal Cert.KernelIdeal.Gen Cert.KernelIdeal.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- After a sequence of stores the last of which covers the whole shape (offset zero, the shape's own sizes), a view
    reads that last store's payload, whatever the earlier stores and the prior contents were. -/
theorem read_writes_cons_whole {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

/-- A load of the whole shape after such a sequence of stores reads the last store's payload. -/
theorem readCov_cons_whole {sig' : RefSig} {κ : Kind} {sp : Space} {S : Shape} {e : EltTy}
    (v : View sig' κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld v _ _ (fun y => ⟨_, List.mem_cons_self, View.mem_set_unit_zero h inb y⟩),
    View.canon_cons_unit_zero h inb w L, View.ld_unit_zero h inb]

theorem sound_body (c : Dev nD) (i : grid0.Coords)
    (arg2 : Memref sig .tc .vmem S64x128 .f32) (harg2 : arg2.IsWhole) (arg3 : Memref sig .tc .vmem S64x128 .i32) (harg3 : arg3.IsWhole)
    (arg4 : Memref sig .tc .vmem S64x128x256 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S1x128 .f32) (harg7 : arg7.IsWhole)
    (X0 : Vec F S64x128 .f32) (X1 : Vec F S64x128 .i32) (X2 : Vec F S64x128x256 .f32) (O S0 S1 : Vec F S1x128 .f32)
    (E : Set ℕ) (K : PUnit → sProp 𝕄) :
    iprop(owns (c : Thread nD τ) arg2 fullShare X0 ∗ owns (c : Thread nD τ) arg3 fullShare X1 ∗ owns (c : Thread nD τ) arg4 fullShare X2
        ∗ owns (c : Thread nD τ) arg5 fullShare O ∗ owns (c : Thread nD τ) arg6 fullShare S0 ∗ owns (c : Thread nD τ) arg7 fullShare S1
        ∗ (iprop(owns (c : Thread nD τ) arg2 fullShare X0 ∗ owns (c : Thread nD τ) arg3 fullShare X1 ∗ owns (c : Thread nD τ) arg4 fullShare X2
            ∗ owns (c : Thread nD τ) arg5 fullShare (outOut i X0 X1 X2 S0 S1 O)
            ∗ owns (c : Thread nD τ) arg6 fullShare (acc0Out i X0 X1 S0) ∗ owns (c : Thread nD τ) arg7 fullShare (acc1Out i X1 X2 S1)) -∗ K ⟨⟩))
      ⊢ wp frame (wpE (defs₀ (F := F)) Variants.none c none) E
          (cc0__kernel i arg2 harg2 arg3 harg3 arg4 harg4 arg5 harg5 arg6 harg6 arg7 harg7) K := by
  -- Every access is of a whole buffer (offset zero, the buffer's own sizes): a load reads the contents, a store replaces
  -- them. The two conditionals are decided by the point: at a first point the accumulators are reset before they are
  -- read, so what is added to is the reset value; elsewhere it is what the point found. At a last point the output
  -- buffer is stored from the two accumulators just written; elsewhere it is not touched. In each of the four cases
  -- the three inputs come back as they were, and what each written buffer reads afterwards is the payload of the last
  -- store into it, which is the step function's value once its own conditionals are decided the same way.
  have hz2 : (![0, 0] : Fin 2 → Nat) = fun _ => 0 := funext fun a => by fin_cases a <;> rfl
  have hz3 : (![0, 0, 0] : Fin 3 → Nat) = fun _ => 0 := funext fun a => by fin_cases a <;> rfl
  by_cases h1 : isFirst i <;> by_cases h2 : isLast i <;>
  ( simp only [cc0__kernel_eq_skeleton]; unfold cc0__kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2
    obtain rfl := harg5.eq_unread hf5; obtain rfl := harg6.eq_unread hf6; obtain rfl := harg7.eq_unread hf7
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; swap; iexact H5
      ipureintro; sl_unfold_words; dsimp only
      simp only [View.readAt_eq_ld, harg2.read_unread, harg3.read_unread, harg4.read_unread, harg5.read_unread, harg6.read_unread,
        harg7.read_unread, View.ld_unit_zero (S := S64x128) hz2, View.ld_unit_zero (S := S64x128x256) hz3,
        View.ld_unit_zero (S := S1x128) hz2, readCov_cons_whole (S := S1x128) _ hz2, read_writes_cons_whole (S := S1x128) _ _ hz2]
      unfold outOut acc0Out acc1Out acc0In acc1In
      first | simp only [if_pos h1] | simp only [if_neg h1]
      try (first | simp only [if_pos h2] | simp only [if_neg h2])
      try rfl
    isplitl [H6]
    · iexists _; isplitr; swap; iexact H6
      ipureintro; sl_unfold_words; dsimp only
      simp only [View.readAt_eq_ld, harg2.read_unread, harg3.read_unread, harg4.read_unread, harg5.read_unread, harg6.read_unread,
        harg7.read_unread, View.ld_unit_zero (S := S64x128) hz2, View.ld_unit_zero (S := S64x128x256) hz3,
        View.ld_unit_zero (S := S1x128) hz2, readCov_cons_whole (S := S1x128) _ hz2, read_writes_cons_whole (S := S1x128) _ _ hz2]
      unfold acc0Out acc0In
      first | simp only [if_pos h1] | simp only [if_neg h1]
      try rfl
    · iexists _; isplitr; swap; iexact H7
      ipureintro; sl_unfold_words; dsimp only
      simp only [View.readAt_eq_ld, harg2.read_unread, harg3.read_unread, harg4.read_unread, harg5.read_unread, harg6.read_unread,
        harg7.read_unread, View.ld_unit_zero (S := S64x128) hz2, View.ld_unit_zero (S := S64x128x256) hz3,
        View.ld_unit_zero (S := S1x128) hz2, readCov_cons_whole (S := S1x128) _ hz2, read_writes_cons_whole (S := S1x128) _ _ hz2]
      unfold acc1Out acc1In
      first | simp only [if_pos h1] | simp only [if_neg h1]
      try rfl )

end Cert.KernelIdeal.Body

end
-- ==== Proof.IdealStep.lean ====
/-
  One grid point's step functions read at a lane on the extended reals: each accumulator gains the sum over the
  block's 64 rows of the per-pair term, a row counting only when its class index lies below 500; the restart values
  are zero; the written output is the sum of the two accumulators.
-/
import proofs.«169059_j30399778521687_1_alg».proof.Proof.StepIdeal
import proofs.«169059_j30399778521687_1_alg».proof.Proof.Spec
import Idealize.ShloMosaic.PureOps.Ideal.Laws
import Idealize.ShloMosaic.Lib.ValueIdx
import Idealize.ShloMosaic.Lib.ValueLayout
import Mathlib.Algebra.BigOperators.Fin
import Mathlib.Logic.Equiv.Fin.Basic

noncomputable section

open scoped BigOperators

namespace Cert.KernelIdeal.IdealStep

open Idealize.ShloMosaic Idealize.ShloMosaic.ValueIdx Cert.KernelIdeal Cert.KernelIdeal.Gen Cert.KernelIdeal.Step Cert.Spec

/-! ## The scalar chains on the class-block coordinate -/

/-- The "first block" chain over the eight values of the coordinate. -/
theorem first_fin : ∀ k : Fin 8,
    Scalar.cmpi .ne (Scalar.extui (Scalar.cmpi .eq (BitVec.ofNat 32 k.val) 0#32)) 0#32 = 1#1 ↔ k.val = 0 := by
  decide

/-- The "last block" chain over the eight values of the coordinate. -/
theorem last_fin : ∀ k : Fin 8,
    Scalar.cmpi .ne (Scalar.extui (Scalar.cmpi .eq (BitVec.ofNat 32 k.val) 7#32)) 0#32 = 1#1 ↔ k.val = 7 := by
  decide

theorem isFirst_iff (i : grid0.Coords) : isFirst i ↔ (i 1).val = 0 := first_fin (i 1)

theorem isLast_iff (i : grid0.Coords) : isLast i ↔ (i 1).val = 7 := last_fin (i 1)

/-! ## The literal words -/

/-- The zero word is the extended real 0. -/
theorem zero_word : Scalar.ofBits (F := Ideal) .f32 0x00000000#32 = (0 : EReal) := Ideal.ofBits_zero_f32

/-- The word of 1.0 is the extended real 1. -/
theorem one_word : Scalar.ofBits (F := Ideal) .f32 0x3F800000#32 = (1 : EReal) :=
  IdealRules.sign_bit.ideal_onePat .f32

theorem pay4_eq : k0_pay4 (F := Ideal) = fun _ => (0 : EReal) := by
  unfold k0_pay4
  show shapeCast S1x128 (broadcast S1x128 (Scalar.ofBits (F := Ideal) .f32 0x00000000#32)) shapeCasts_S1x128_S1x128 = _
  rw [shapeCast_self]
  funext j
  exact zero_word

theorem pay5_eq : k0_pay5 (F := Ideal) = fun _ => (0 : EReal) := by
  unfold k0_pay5
  show shapeCast S1x128 (broadcast S1x128 (Scalar.ofBits (F := Ideal) .f32 0x00000000#32)) shapeCasts_S1x128_S1x128 = _
  rw [shapeCast_self]
  funext j
  exact zero_word

theorem pay3_apply (a b : Vec Ideal S1x128 .f32) (j : S1x128.Idx) : k0_pay3 (F := Ideal) a b j = a j + b j := by
  unfold k0_pay3
  show a j + Scalar.ofBits (F := Ideal) .f32 0x3F800000#32 * b j = a j + b j
  rw [one_word, one_mul]

/-! ## The logistic function of a vector read at an index (by definition) -/

theorem logistic_apply {s : Shape} (a : FVec Ideal s .f32) (j : s.Idx) : logistic a j = Ideal.logistic (a j) := rfl

/-! ## The row mask -/

/-- Over the 8 × 64 (block, row) pairs the wrapped 32-bit comparison is the comparison of the naturals. -/
theorem mask_fin : ∀ (k : Fin 8) (r : Fin 64),
    IntOp.cmpi .slt (IntOp.addi (Scalar.muli (BitVec.ofNat 32 k.val) 64#32) (BitVec.ofNat 32 r.val)) 500#32 = 1#1
      ↔ 64 * k.val + r.val < 500 := by
  decide +kernel

/-- The mask at row `r` is set exactly when the row's class index is below 500. -/
theorem pay8_apply (i : grid0.Coords) (r : Fin 64) (q : Fin 128) :
    k0_pay8 i (ix2 r q) = 1#1 ↔ 64 * (i 1).val + r.val < 500 := by
  unfold k0_pay8
  show IntOp.cmpi .slt (IntOp.addi (Scalar.muli (BitVec.ofNat 32 (i 1).val) 64#32)
      (iota .tc S64x128 32 [0] iota_S64x128_d0_w32 (ix2 r q))) 500#32 = 1#1 ↔ _
  rw [iota_single_apply]
  exact mask_fin (i 1) r

/-- A select on the mask at row `r` is the `if` on the row's class index. -/
theorem select_mask (i : grid0.Coords) (A B : S64x128.Idx → EReal) (r : Fin 64) (q : Fin 128) :
    select (k0_pay8 i) A B (ix2 r q) = if 64 * (i 1).val + r.val < 500 then A (ix2 r q) else B (ix2 r q) := by
  show (if k0_pay8 i (ix2 r q) = 1 then _ else _) = _
  exact if_congr (pay8_apply i r q) rfl rfl

/-! ## The column sum -/

/-- The sum over the 64 rows, stored as a `[1, 128]` block, read at lane `q`. -/
theorem colsum_apply (v : FVec Ideal S64x128 .f32) (q : Fin 128) :
    shapeCast S1x128 (multiReduction (F := Ideal) .add [0] S128 v 0x00000000#32 reduces_S64x128_S128 (.inl rfl) rfl)
        shapeCasts_S128_S1x128 (ix2 0 q)
      = ∑ r : Fin 64, v (ix2 r q) := by
  refine (shapeCast_a_1a_apply _ _ 0 q).trans ?_
  refine (Ideal.multiReduction_add_single v _ reduces_S64x128_S128 _ _ (ix1 q)).trans ?_
  refine Finset.sum_congr rfl fun r _ => congrArg v ?_
  funext a
  match a with
  | ⟨0, _⟩ => rfl
  | ⟨1, _⟩ => rfl

/-! ## One element's arithmetic -/

/-- A value is not different from itself: the guard of the body's softplus is clear. -/
theorem guard_eq_zero (a : EReal) : FloatOps.cmpf (F := Ideal) (φ := .f32) .one a a = 0#1 := by
  show Ideal.cmp .one a a = 0#1
  simp [Ideal.cmp]

/-- The softplus as the body spells it, over its zero constant `o` and the already taken `m = max z o`. -/
def spBody (o m z : EReal) : EReal :=
  Scalar.select (FloatOps.cmpf (F := Ideal) (φ := .f32) .one (z - o) (z - o)) (z + o)
    (m + Ideal.log1p (Ideal.exp (o - max (z - o) (-(z - o)))))

/-- At the zero constant it is the overflow-safe softplus. -/
theorem spBody_eq (z : EReal) : spBody 0 (max z 0) z = softplus z := by
  unfold spBody softplus
  rw [guard_eq_zero, select_zero, sub_zero, zero_sub]

/-- The label's conversion is zero exactly at the zero word. -/
theorem lab_eq_zero_iff (l : BitVec 32) : lab l = 0 ↔ l = 0#32 := by
  unfold lab
  rw [EReal.coe_eq_zero, Int.cast_eq_zero, ← BitVec.toInt_zero (w := 32), BitVec.toInt_inj]

/-- The rejection term's inner select, on the comparison of the converted label with zero. -/
theorem select_oeq (l : BitVec 32) (A : EReal) :
    Scalar.select (FloatOps.cmpf (F := Ideal) (φ := .f32) .oeq (lab l) 0) A 0 = if l = 0#32 then A else 0 := by
  show (if Ideal.cmp .oeq (lab l) 0 = 1 then A else 0) = _
  refine if_congr ?_ rfl rfl
  rw [← lab_eq_zero_iff]
  by_cases h : lab l = 0 <;> simp [Ideal.cmp, h]

/-! ## The payloads at an index -/

theorem pay6_eq (X0 : Vec Ideal S64x128 .f32) : k0_pay6 X0 = X0 := by
  unfold k0_pay6
  exact shapeCast_self _ _

theorem pay7_apply (X1 : Vec Ideal S64x128 .i32) (j : S64x128.Idx) : k0_pay7 (F := Ideal) X1 j = lab (X1 j) := by
  unfold k0_pay7
  show FloatOps.sitofp (F := Ideal) .f32 (shapeCast S64x128 X1 shapeCasts_S64x128_S64x128 j) = _
  rw [shapeCast_self]
  rfl

/-- `-(-x)`, the argument of the second softplus. -/
theorem pay11_apply (X0 : Vec Ideal S64x128 .f32) (j : S64x128.Idx) : k0_pay11 X0 j = -(-(X0 j)) := by
  have h : k0_pay11 X0 j = Scalar.ofBits (F := Ideal) .f32 0x00000000#32
      - (Scalar.ofBits (F := Ideal) .f32 0x00000000#32 - k0_pay6 X0 j) := rfl
  rw [h, pay6_eq, zero_word, zero_sub, zero_sub]

theorem pay12_apply (X0 : Vec Ideal S64x128 .f32) (j : S64x128.Idx) : k0_pay12 X0 j = max (-(-(X0 j))) 0 := by
  have h : k0_pay12 X0 j = max (k0_pay11 X0 j) (Scalar.ofBits (F := Ideal) .f32 0x00000000#32) := rfl
  rw [h, pay11_apply, zero_word]

theorem pay10_apply (X1 : Vec Ideal S64x128 .i32) (j : S64x128.Idx) : k0_pay10 (F := Ideal) X1 j = 1 - lab (X1 j) := by
  have h : k0_pay10 (F := Ideal) X1 j = Scalar.ofBits (F := Ideal) .f32 0x3F800000#32 - k0_pay7 (F := Ideal) X1 j := rfl
  rw [h, pay7_apply, one_word]

/-- The label times the log-sigmoid of the logit. -/
theorem pay9_apply (X0 : Vec Ideal S64x128 .f32) (X1 : Vec Ideal S64x128 .i32) (j : S64x128.Idx) :
    k0_pay9 X0 X1 j = lab (X1 j) * logsig (X0 j) := by
  have h : k0_pay9 X0 X1 j = k0_pay7 (F := Ideal) X1 j * (Scalar.ofBits (F := Ideal) .f32 0x00000000#32
      - spBody (Scalar.ofBits (F := Ideal) .f32 0x00000000#32)
          (max (Scalar.ofBits (F := Ideal) .f32 0x00000000#32 - k0_pay6 X0 j) (Scalar.ofBits (F := Ideal) .f32 0x00000000#32))
          (Scalar.ofBits (F := Ideal) .f32 0x00000000#32 - k0_pay6 X0 j)) := rfl
  rw [h, pay7_apply, pay6_eq, zero_word, zero_sub, zero_sub, spBody_eq]
  rfl

/-! ## The cross-entropy accumulator -/

/-- The masked per-pair cross-entropy term of the block, as the body spells it. -/
def term0 (i : grid0.Coords) (X0 : Vec Ideal S64x128 .f32) (X1 : Vec Ideal S64x128 .i32) : FVec Ideal S64x128 .f32 :=
  select (k0_pay8 i)
    (fun j => Scalar.ofBits (F := Ideal) .f32 0x00000000#32
      - (k0_pay9 X0 X1 j + k0_pay10 (F := Ideal) X1 j * (Scalar.ofBits (F := Ideal) .f32 0x00000000#32
          - spBody (Scalar.ofBits (F := Ideal) .f32 0x00000000#32) (k0_pay12 X0 j) (k0_pay11 X0 j))))
    (fun _ => Scalar.ofBits (F := Ideal) .f32 0x00000000#32)

theorem term0_apply (i : grid0.Coords) (X0 : Vec Ideal S64x128 .f32) (X1 : Vec Ideal S64x128 .i32) (r : Fin 64) (q : Fin 128) :
    term0 i X0 X1 (ix2 r q) = if 64 * (i 1).val + r.val < 500 then bce (X0 (ix2 r q)) (X1 (ix2 r q)) else 0 := by
  unfold term0
  rw [select_mask]
  refine if_congr Iff.rfl ?_ zero_word
  rw [pay9_apply, pay10_apply, pay12_apply, pay11_apply, zero_word, spBody_eq, zero_sub, zero_sub]
  rfl

theorem acc0Out_raw (i : grid0.Coords) (X0 : Vec Ideal S64x128 .f32) (X1 : Vec Ideal S64x128 .i32) (S0 : Vec Ideal S1x128 .f32) :
    acc0Out (F := Ideal) i X0 X1 S0
      = shapeCast S1x128 (addf (acc0In (F := Ideal) i S0)
          (shapeCast S1x128 (multiReduction (F := Ideal) .add [0] S128 (term0 i X0 X1) 0x00000000#32 reduces_S64x128_S128 (.inl rfl) rfl)
            shapeCasts_S128_S1x128)) shapeCasts_S1x128_S1x128 := rfl

theorem acc0Out_apply (i : grid0.Coords) (X0 : Vec Ideal S64x128 .f32) (X1 : Vec Ideal S64x128 .i32) (S0 : Vec Ideal S1x128 .f32)
    (q : Fin 128) :
    acc0Out (F := Ideal) i X0 X1 S0 (ix2 0 q)
      = acc0In (F := Ideal) i S0 (ix2 0 q)
        + ∑ r : Fin 64, (if 64 * (i 1).val + r.val < 500 then bce (X0 (ix2 r q)) (X1 (ix2 r q)) else 0) := by
  rw [acc0Out_raw, shapeCast_self]
  show acc0In (F := Ideal) i S0 (ix2 0 q) + _ = _
  rw [colsum_apply]
  exact congrArg _ (Finset.sum_congr rfl fun r _ => term0_apply i X0 X1 r q)

/-! ## The rejection accumulator -/

/-- The maximum over the feature axis at `(r, q)`, folded from -∞. -/
theorem rowmax_apply (X2 : Vec Ideal S64x128x256 .f32) (r : Fin 64) (q : Fin 128) :
    multiReduction (F := Ideal) .maximumf [2] S64x128 X2 0xFF800000#32 reduces_S64x128x256_S64x128 (.inl rfl) rfl (ix2 r q)
      = (Finset.univ : Finset (Fin 256)).fold max negInf (fun d => X2 (ix3 r q d)) := by
  refine (Ideal.multiReduction_maximumf_single X2 _ reduces_S64x128x256_S64x128 _ _ (ix2 r q)).trans ?_
  have hf : (X2 ∘ reduces_S64x128x256_S64x128.lift (ix2 r q)) = fun d : Fin 256 => X2 (ix3 r q d) := by
    funext d
    refine congrArg X2 ?_
    funext a
    match a with
    | ⟨0, _⟩ => rfl
    | ⟨1, _⟩ => rfl
    | ⟨2, _⟩ => rfl
  exact congrArg (fun f : Fin 256 → EReal => (Finset.univ : Finset (Fin 256)).fold max negInf f) hf

/-- The masked per-pair rejection term of the block, as the body spells it. -/
def term1 (i : grid0.Coords) (X1 : Vec Ideal S64x128 .i32) (X2 : Vec Ideal S64x128x256 .f32) : FVec Ideal S64x128 .f32 :=
  select (k0_pay8 i)
    (select (cmpf .oeq (k0_pay7 (F := Ideal) X1) (broadcast S64x128 (Scalar.ofBits (F := Ideal) .f32 0x00000000#32)))
      (maximumf (subf (logistic (multiReduction (F := Ideal) .maximumf [2] S64x128 X2 0xFF800000#32 reduces_S64x128x256_S64x128 (.inl rfl) rfl))
          (broadcast S64x128 (Scalar.ofBits (F := Ideal) .f32 0x3E99999A#32)))
        (broadcast S64x128 (Scalar.ofBits (F := Ideal) .f32 0x00000000#32)))
      (broadcast S64x128 (Scalar.ofBits (F := Ideal) .f32 0x00000000#32)))
    (broadcast S64x128 (Scalar.ofBits (F := Ideal) .f32 0x00000000#32))

theorem term1_apply (i : grid0.Coords) (X1 : Vec Ideal S64x128 .i32) (X2 : Vec Ideal S64x128x256 .f32) (r : Fin 64) (q : Fin 128) :
    term1 i X1 X2 (ix2 r q) = if 64 * (i 1).val + r.val < 500
      then rej ((Finset.univ : Finset (Fin 256)).fold max negInf (fun d => X2 (ix3 r q d))) (X1 (ix2 r q)) else 0 := by
  unfold term1
  rw [select_mask]
  refine if_congr Iff.rfl ?_ zero_word
  rw [select_apply, cmpf_apply, maximumf_apply, subf_apply, logistic_apply, broadcast_apply, broadcast_apply,
    pay7_apply, rowmax_apply, zero_word, select_oeq]
  generalize (Finset.univ : Finset (Fin 256)).fold max negInf (fun d => X2 (ix3 r q d)) = mx
  rfl

theorem acc1Out_raw (i : grid0.Coords) (X1 : Vec Ideal S64x128 .i32) (X2 : Vec Ideal S64x128x256 .f32) (S1 : Vec Ideal S1x128 .f32) :
    acc1Out (F := Ideal) i X1 X2 S1
      = shapeCast S1x128 (addf (acc1In (F := Ideal) i S1)
          (shapeCast S1x128 (multiReduction (F := Ideal) .add [0] S128 (term1 i X1 X2) 0x00000000#32 reduces_S64x128_S128 (.inl rfl) rfl)
            shapeCasts_S128_S1x128)) shapeCasts_S1x128_S1x128 := rfl

theorem acc1Out_apply (i : grid0.Coords) (X1 : Vec Ideal S64x128 .i32) (X2 : Vec Ideal S64x128x256 .f32) (S1 : Vec Ideal S1x128 .f32)
    (q : Fin 128) :
    acc1Out (F := Ideal) i X1 X2 S1 (ix2 0 q)
      = acc1In (F := Ideal) i S1 (ix2 0 q)
        + ∑ r : Fin 64, (if 64 * (i 1).val + r.val < 500
            then rej ((Finset.univ : Finset (Fin 256)).fold max negInf (fun d => X2 (ix3 r q d))) (X1 (ix2 r q)) else 0) := by
  rw [acc1Out_raw, shapeCast_self]
  show acc1In (F := Ideal) i S1 (ix2 0 q) + _ = _
  rw [colsum_apply]
  exact congrArg _ (Finset.sum_congr rfl fun r _ => term1_apply i X1 X2 r q)

/-- Eight blocks of 64 rows, a row counting only below 500, sum to the sum over the 500 classes. -/
theorem sum_blocks (f : ℕ → EReal) :
    ∑ k : Fin 8, ∑ r : Fin 64, (if 64 * k.val + r.val < 500 then f (64 * k.val + r.val) else 0) = ∑ c : Fin 500, f c.val := by
  have h1 : ∀ g : ℕ → EReal, ∑ k : Fin 8, ∑ r : Fin 64, g (64 * k.val + r.val) = ∑ c : Fin (8 * 64), g c.val := by
    intro g
    rw [← Equiv.sum_comp finProdFinEquiv (fun c : Fin (8 * 64) => g c.val), Fintype.sum_prod_type]
    refine Finset.sum_congr rfl fun k _ => Finset.sum_congr rfl fun r _ => ?_
    rw [finProdFinEquiv_apply_val, Nat.add_comm]
  rw [h1 (fun n => if n < 500 then f n else 0), Fin.sum_univ_eq_sum_range (fun n => if n < 500 then f n else 0) (8 * 64),
    Fin.sum_univ_eq_sum_range f 500, ← Finset.sum_filter]
  refine Finset.sum_congr ?_ fun _ _ => rfl
  ext n
  simp only [Finset.mem_filter, Finset.mem_range]
  omega

end Cert.KernelIdeal.IdealStep

end
-- ==== Proof.IdealDat.lean ====
/-
  The proof data of the idealized kernel's one pipeline on the extended reals: the arrays as the region finds them;
  after each point the input staging buffers at their fetched blocks, the output block's buffer (written at the last
  class-block of a sample-block) at the sum of the two finished column sums; between points the two accumulators at the
  running column sums of the class-blocks added so far. The body obligation follows from the body's triple, the step
  functions read at a lane, and a fetched block read at the rows inside the array.
-/
import proofs.«169059_j30399778521687_1_alg».proof.Proof.IdealData
import proofs.«169059_j30399778521687_1_alg».proof.Proof.BodyIdeal
import proofs.«169059_j30399778521687_1_alg».proof.Proof.IdealStep

set_option maxRecDepth 16384

noncomputable section

open scoped BigOperators

namespace Cert.KernelIdeal.IdealRun

open Cert.KernelIdeal Cert.KernelIdeal.Gen Cert.KernelIdeal.Step Cert.KernelIdeal.IdealStep Cert.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The two accumulators, whole scoped buffers of the kernel's own. -/
abbrev scM0 : Memref sig .tc .vmem S1x128 .f32 := Memref.whole cc0_scratch0
abbrev scM1 : Memref sig .tc .vmem S1x128 .f32 := Memref.whole cc0_scratch1

/-- What the accumulators hold before point `n`: the column sums of the `n % 8` class-blocks already added. -/
def lane (j : S1x128.Idx) : Fin 128 := ⟨(j 1).val, (j 1).isLt⟩
def accVec0 (c : Dev nD) (n : ℕ) : Vec Ideal S1x128 .f32 := fun j => accB m c (n / 8) (n % 8) (lane j)
def accVec1 (c : Dev nD) (n : ℕ) : Vec Ideal S1x128 .f32 := fun j => accR m c (n / 8) (n % 8) (lane j)
/-- What the last class-block of sample-block `b` writes out: the two finished column sums, added. -/
def outRow (c : Dev nD) (b : ℕ) : Vec Ideal S1x128 .f32 := fun j => accB m c b 8 (lane j) + accR m c b 8 (lane j)

/-- The invariant between points: the accumulators at the running sums (at a first class-block: at anything, the body
    restarts them), and the generator register at some state. -/
def PhiT (c : Dev nD) (n : Fin (cfg0.N + 1)) : sProp 𝕄 :=
  iprop(∃ S0 : Vec Ideal S1x128 .f32, ∃ S1 : Vec Ideal S1x128 .f32,
    ⌜n.val % 8 ≠ 0 → S0 = accVec0 m c n.val ∧ S1 = accVec1 m c n.val⌝
      ∗ owns (c : Thread nD τ) scM0 fullShare S0 ∗ owns (c : Thread nD τ) scM1 fullShare S1 ∗ ∃ r, prngReg c r)

/-- The proof data on core `c`. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0#32 : BitVec 32)) (iblk m c 1 t)
    | ⟨2, _⟩ => win0_2.fill (grid0.coords t) (fun _ => (0 : EReal)) (iblk m c 2 t)
    | ⟨3, _⟩ => outRow m c (t.val / 8)
  Φ n := PhiT m c n
  q _ := fullShare
  owed _ := 0

theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The schedule, decided over the sixteen points -/

theorem idle3 : ∀ t : Fin grid0.N, idle0 3 (grid0.coords t) = !decide (t.val % 8 = 7) := by decide +kernel
theorem flush3 : ∀ t : Fin grid0.N, (cfg0.win 3).flush t = decide (t.val % 8 = 7) := by decide +kernel
theorem last_iff : ∀ t : Fin grid0.N, isLast (grid0.coords t) ↔ t.val % 8 = 7 := by decide +kernel
theorem first_iff : ∀ t : Fin grid0.N, isFirst (grid0.coords t) ↔ t.val % 8 = 0 := by decide +kernel

/-! ## One point's step on the running sums -/

/-- An index of the one-row block is (0, its lane). -/
theorem idx_row (j : S1x128.Idx) : j = ix2 (0 : Fin 1) (lane j) := by
  funext a
  match a with
  | ⟨0, _⟩ => exact Fin.ext (Nat.lt_one_iff.mp (j 0).isLt)
  | ⟨1, _⟩ => rfl
theorem lane_ix2 (q : Fin 128) : lane (ix2 (0 : Fin 1) q) = q := rfl

/-- The cross-entropy accumulator after point `t`: one more class-block added. -/
theorem acc0_step (c : Dev nD) (t : Fin cfg0.N) (d0 : S64x128.Idx → EReal) (d1 : S64x128.Idx → BitVec 32)
    (S0 : Vec Ideal S1x128 .f32) (hS : t.val % 8 ≠ 0 → S0 = accVec0 m c t.val) :
    acc0Out (F := Ideal) (grid0.coords t) (win0_0.fill (grid0.coords t) d0 (iblk m c 0 t))
        (win0_1.fill (grid0.coords t) d1 (iblk m c 1 t)) S0
      = fun j => accB m c (t.val / 8) (t.val % 8 + 1) (lane j) := by
  funext j
  rw [idx_row j]
  refine (acc0Out_apply _ _ _ _ _).trans ?_
  show _ = accB m c (t.val / 8) (t.val % 8 + 1) (lane j)
  rw [accB_succ]
  have hc := (coords_facts t).2
  congr 1
  · unfold acc0In
    by_cases h0 : t.val % 8 = 0
    · rw [if_pos ((first_iff t).mpr h0), pay4_eq, h0, accB_zero]
    · rw [if_neg (mt (first_iff t).mp h0), hS h0]; rfl
  · refine Finset.sum_congr rfl fun r _ => ?_
    rw [hc]
    by_cases hr : 64 * (t.val % 8) + r.val < 500
    · rw [if_pos hr, if_pos hr]; unfold termB; rw [read0 m c t d0 r (lane j) hr, read1 m c t d1 r (lane j) hr]
    · rw [if_neg hr, if_neg hr]

/-- The rejection accumulator after point `t`. -/
theorem acc1_step (c : Dev nD) (t : Fin cfg0.N) (d1 : S64x128.Idx → BitVec 32) (d2 : S64x128x256.Idx → EReal)
    (S1 : Vec Ideal S1x128 .f32) (hS : t.val % 8 ≠ 0 → S1 = accVec1 m c t.val) :
    acc1Out (F := Ideal) (grid0.coords t) (win0_1.fill (grid0.coords t) d1 (iblk m c 1 t))
        (win0_2.fill (grid0.coords t) d2 (iblk m c 2 t)) S1
      = fun j => accR m c (t.val / 8) (t.val % 8 + 1) (lane j) := by
  funext j
  rw [idx_row j]
  refine (acc1Out_apply _ _ _ _ _).trans ?_
  show _ = accR m c (t.val / 8) (t.val % 8 + 1) (lane j)
  rw [accR_succ]
  have hc := (coords_facts t).2
  congr 1
  · unfold acc1In
    by_cases h0 : t.val % 8 = 0
    · rw [if_pos ((first_iff t).mpr h0), pay5_eq, h0, accR_zero]
    · rw [if_neg (mt (first_iff t).mp h0), hS h0]; rfl
  · refine Finset.sum_congr rfl fun r _ => ?_
    rw [hc]
    by_cases hr : 64 * (t.val % 8) + r.val < 500
    · rw [if_pos hr, if_pos hr]; unfold termR; rw [read1 m c t d1 r (lane j) hr]
      congr 2
      funext e
      exact read2 m c t d2 r (lane j) e hr
    · rw [if_neg hr, if_neg hr]

/-- What the invariant asks of the accumulators before the next point. -/
theorem next_inv (c : Dev nD) (t : Fin cfg0.N) (h : (t.val + 1) % 8 ≠ 0) :
    (fun j : S1x128.Idx => accB m c (t.val / 8) (t.val % 8 + 1) (lane j)) = accVec0 m c (t.val + 1)
    ∧ (fun j : S1x128.Idx => accR m c (t.val / 8) (t.val % 8 + 1) (lane j)) = accVec1 m c (t.val + 1) := by
  have e1 : (t.val + 1) / 8 = t.val / 8 := by omega
  have e2 : (t.val + 1) % 8 = t.val % 8 + 1 := by omega
  unfold accVec0 accVec1; rw [e1, e2]; exact ⟨rfl, rfl⟩

/-- At a last class-block the written block is the sum of the two finished column sums. -/
theorem out_step (c : Dev nD) (t : Fin cfg0.N) (d0 : S64x128.Idx → EReal) (d1 : S64x128.Idx → BitVec 32)
    (d2 : S64x128x256.Idx → EReal) (S0 S1 O : Vec Ideal S1x128 .f32) (h7 : t.val % 8 = 7)
    (hS0 : t.val % 8 ≠ 0 → S0 = accVec0 m c t.val) (hS1 : t.val % 8 ≠ 0 → S1 = accVec1 m c t.val) :
    outOut (F := Ideal) (grid0.coords t) (win0_0.fill (grid0.coords t) d0 (iblk m c 0 t))
        (win0_1.fill (grid0.coords t) d1 (iblk m c 1 t)) (win0_2.fill (grid0.coords t) d2 (iblk m c 2 t)) S0 S1 O
      = outRow m c (t.val / 8) := by
  unfold outOut
  rw [if_pos ((last_iff t).mpr h7), acc0_step m c t d0 d1 S0 hS0, acc1_step m c t d1 d2 S1 hS1]
  funext j
  rw [pay3_apply, h7]
  rfl

theorem body_obligation (c : Dev nD) : BodyObligationLoose (dats m 0 c) (defs₀ (F := Ideal)) Variants.none () Set.univ := fun t => by
  rw [bigSep_W0, bigSep_W0]
  rw [show (dats m 0 c).owesAt () t.succ = (dats m 0 c).owesAt () t.castSucc from rfl,
    show (dats m 0 c).Φ t.castSucc = PhiT m c t.castSucc from rfl, show (dats m 0 c).Φ t.succ = PhiT m c t.succ from rfl]
  have hx0 : ∀ d, (win0 0).fill (grid0.coords t) d ((win0 0).cut (grid0.coords t) ((dats m 0 c).after 0 t))
      = win0_0.fill (grid0.coords t) d (iblk m c 0 t) := fun d =>
    congrArg (win0_0.fill (grid0.coords t) d) (win0_0.cut_fill (grid0.coords t) (fun _ => (0 : EReal)) (iblk m c 0 t))
  have hx1 : ∀ d, (win0 1).fill (grid0.coords t) d ((win0 1).cut (grid0.coords t) ((dats m 0 c).after 1 t))
      = win0_1.fill (grid0.coords t) d (iblk m c 1 t) := fun d =>
    congrArg (win0_1.fill (grid0.coords t) d) (win0_1.cut_fill (grid0.coords t) (fun _ => (0#32 : BitVec 32)) (iblk m c 1 t))
  have hx2 : ∀ d, (win0 2).fill (grid0.coords t) d ((win0 2).cut (grid0.coords t) ((dats m 0 c).after 2 t))
      = win0_2.fill (grid0.coords t) d (iblk m c 2 t) := fun d =>
    congrArg (win0_2.fill (grid0.coords t) d) (win0_2.cut_fill (grid0.coords t) (fun _ => (0 : EReal)) (iblk m c 2 t))
  by_cases h7 : t.val % 8 = 7
  · have hi : idle0 3 (grid0.coords t) = false := by rw [idle3 t]; simp [h7]
    simp only [hi]
    change _ ⊢ wp frame (wpE (defs₀ (F := Ideal)) Variants.none (c : Thread nD τ) none) Set.univ (bodyAt0 (F := Ideal) t) _
    unfold PhiT
    iintro ⟨⟨%S0, %S1, %hS, HS0, HS1, Hr⟩, Ho, ⟨%d0, H0⟩, ⟨%d1, H1⟩, ⟨%d2, H2⟩, ⟨%d3, H3⟩⟩
    rw [(dats m 0 c).before_fetched 0 t (fetch0_0 t) d0, (dats m 0 c).before_fetched 1 t (fetch0_1 t) d1,
      (dats m 0 c).before_fetched 2 t (fetch0_2 t) d2]
    have hS0 : t.val % 8 ≠ 0 → S0 = accVec0 m c t.val := fun h => (hS h).1
    have hS1 : t.val % 8 ≠ 0 → S1 = accVec1 m c t.val := fun h => (hS h).2
    iapply (Body.sound_body (F := Ideal) c (grid0.coords t) _ _ _ _ _ _ _ _ _ _ _ _
      (win0_0.fill (grid0.coords t) d0 (iblk m c 0 t)) (win0_1.fill (grid0.coords t) d1 (iblk m c 1 t))
      (win0_2.fill (grid0.coords t) d2 (iblk m c 2 t)) ((dats m 0 c).before 3 t d3) S0 S1 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    rw [out_step m c t d0 d1 d2 S0 S1 _ h7 hS0 hS1]
    isplitl [HS0 HS1 Hr]
    · iexists (acc0Out (F := Ideal) (grid0.coords t) (win0_0.fill (grid0.coords t) d0 (iblk m c 0 t)) (win0_1.fill (grid0.coords t) d1 (iblk m c 1 t)) S0)
      iexists (acc1Out (F := Ideal) (grid0.coords t) (win0_1.fill (grid0.coords t) d1 (iblk m c 1 t)) (win0_2.fill (grid0.coords t) d2 (iblk m c 2 t)) S1)
      isplitr
      · ipureintro
        intro hn
        rw [Fin.val_succ] at hn ⊢
        exact absurd (by omega) hn
      isplitl [HS0]; · iexact HS0
      isplitl [HS1]; · iexact HS1
      iexact Hr
    isplitl [Ho]; · iexact Ho
    isplitl [H0]
    · iexists d0; rw [hx0 d0]; iexact H0
    isplitl [H1]
    · iexists d1; rw [hx1 d1]; iexact H1
    isplitl [H2]
    · iexists d2; rw [hx2 d2]; iexact H2
    · iexact H3
  · have hi : idle0 3 (grid0.coords t) = true := by rw [idle3 t]; simp [h7]
    have hf : (cfg0.win 3).flush t = false := by rw [flush3 t]; simp [h7]
    simp only [hi, hf]
    change _ ⊢ wp frame (wpE (defs₀ (F := Ideal)) Variants.none (c : Thread nD τ) none) Set.univ (bodyAt0 (F := Ideal) t) _
    unfold PhiT
    iintro ⟨⟨%S0, %S1, %hS, HS0, HS1, Hr⟩, Ho, ⟨%d0, H0⟩, ⟨%d1, H1⟩, ⟨%d2, H2⟩, ⟨%d3, H3⟩⟩
    rw [(dats m 0 c).before_fetched 0 t (fetch0_0 t) d0, (dats m 0 c).before_fetched 1 t (fetch0_1 t) d1,
      (dats m 0 c).before_fetched 2 t (fetch0_2 t) d2]
    have hS0 : t.val % 8 ≠ 0 → S0 = accVec0 m c t.val := fun h => (hS h).1
    have hS1 : t.val % 8 ≠ 0 → S1 = accVec1 m c t.val := fun h => (hS h).2
    iapply (Body.sound_body (F := Ideal) c (grid0.coords t) _ _ _ _ _ _ _ _ _ _ _ _
      (win0_0.fill (grid0.coords t) d0 (iblk m c 0 t)) (win0_1.fill (grid0.coords t) d1 (iblk m c 1 t))
      (win0_2.fill (grid0.coords t) d2 (iblk m c 2 t)) ((dats m 0 c).before 3 t d3) S0 S1 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    rw [show outOut (F := Ideal) (grid0.coords t) (win0_0.fill (grid0.coords t) d0 (iblk m c 0 t)) (win0_1.fill (grid0.coords t) d1 (iblk m c 1 t)) (win0_2.fill (grid0.coords t) d2 (iblk m c 2 t)) S0 S1 ((dats m 0 c).before 3 t d3)
        = (dats m 0 c).before 3 t d3 from by unfold outOut; rw [if_neg (mt (last_iff t).mp h7)]]
    isplitl [HS0 HS1 Hr]
    · iexists (acc0Out (F := Ideal) (grid0.coords t) (win0_0.fill (grid0.coords t) d0 (iblk m c 0 t)) (win0_1.fill (grid0.coords t) d1 (iblk m c 1 t)) S0)
      iexists (acc1Out (F := Ideal) (grid0.coords t) (win0_1.fill (grid0.coords t) d1 (iblk m c 1 t)) (win0_2.fill (grid0.coords t) d2 (iblk m c 2 t)) S1)
      isplitr
      · ipureintro
        intro hn
        rw [Fin.val_succ] at hn ⊢
        rw [acc0_step m c t d0 d1 S0 hS0, acc1_step m c t d1 d2 S1 hS1]
        exact next_inv m c t hn
      isplitl [HS0]; · iexact HS0
      isplitl [HS1]; · iexact HS1
      iexact Hr
    isplitl [Ho]; · iexact Ho
    isplitl [H0]
    · iexists d0; rw [hx0 d0]; iexact H0
    isplitl [H1]
    · iexists d1; rw [hx1 d1]; iexact H1
    isplitl [H2]
    · iexists d2; rw [hx2 d2]; iexact H2
    · iexists d3; iexact H3

/-- Before the first point the accumulators hold anything; -/
theorem hin (c : Dev nD) : Pipeline.ΦA spec0 c ⊢ (dats m 0 c).Φ 0 := by
  rw [PhiA_eq]
  show _ ⊢ PhiT m c 0
  unfold PhiT
  iintro ⟨⟨⟨%d0, H0⟩, ⟨%d1, H1⟩⟩, Hr⟩
  iexists d0; iexists d1
  isplitr
  · ipureintro; intro h; exact absurd rfl h
  isplitl [H0]; · iexact H0
  isplitl [H1]; · iexact H1
  iexact Hr

/-- after the last they are forgotten. -/
theorem hout (c : Dev nD) : (dats m 0 c).Φ (Fin.last cfg0.N) ⊢ Pipeline.ΦA spec0 c := by
  rw [PhiA_eq]
  show PhiT m c (Fin.last cfg0.N) ⊢ _
  unfold PhiT
  iintro ⟨%S0, %S1, -, H0, H1, Hr⟩
  isplitl [H0 H1]
  · isplitl [H0]
    · iexists S0; iexact H0
    · iexists S1; iexact H1
  iexact Hr

end Cert.KernelIdeal.IdealRun

end
-- ==== Proof.IdealRun.lean ====
/-
  The idealized kernel's run and what its result holds. The library's frame run with the tracking invariant gives the
  output array [1, 256] after the two write-backs (one per sample-block, at its last class-block): at column
  128·b + q the two finished column sums of sample-block b at lane q, added. The host's reshape makes it the [256]
  result; the eight class-blocks of 64 rows, cut at 500, add up to the sums over the 500 classes; and the transposed
  arrays the region reads are the arguments with their two axes exchanged. So the result is `Spec.G` of the arguments.
-/
import proofs.«169059_j30399778521687_1_alg».proof.Proof.IdealDat
import Idealize.ShloMosaic.Lib.StableHlo.Run
import Idealize.ShloMosaic.Adequacy
import Idealize.ShloMosaic.Init

set_option maxRecDepth 16384

noncomputable section

open scoped BigOperators

namespace Cert.KernelIdeal.IdealRun

open Cert.KernelIdeal Cert.KernelIdeal.Gen Cert.KernelIdeal.Step Cert.KernelIdeal.IdealStep Cert.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- The frame run: every weakly fair execution terminates, the pipeline's arrays at what the proof data computes, every
    other unscoped buffer as the host line after the region leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hin := hin m) (hout := hout m)

/-! ## The output array -/

/-- The output array [1, 256] after the run: at column `col` the two finished sums of its sample-block and lane. -/
def outArr (c : Dev nD) : Vec Ideal S1x256 .f32 := fun i =>
  accB m c ((i 1).val / 128) 8 ⟨(i 1).val % 128, Nat.mod_lt _ (by decide)⟩
    + accR m c ((i 1).val / 128) 8 ⟨(i 1).val % 128, Nat.mod_lt _ (by decide)⟩

theorem geom3 : ∀ t : Fin grid0.N, win0_3.index t 0 = 0 ∧ win0_3.index t 1 = t.val / 8
    ∧ win0_3.xsize (grid0.coords t) 0 = 1 ∧ win0_3.xsize (grid0.coords t) 1 = 128 := by
  decide +kernel

theorem accB_congr (c : Dev nD) {b b' : ℕ} (n : ℕ) {q q' : Fin 128} (hb : b = b') (hq : q.val = q'.val) :
    accB m c b n q = accB m c b' n q' := by subst hb; rw [Fin.ext hq]
theorem accR_congr (c : Dev nD) {b b' : ℕ} (n : ℕ) {q q' : Fin 128} (hb : b = b') (hq : q.val = q'.val) :
    accR m c b n q = accR m c b' n q' := by subst hb; rw [Fin.ext hq]

/-- What a write-back writes is the output array's block there. -/
theorem flushed_eq (c : Dev nD) (t : Fin cfg0.N) (hf : (cfg0.win 3).flush t = true) :
    (dats m 0 c).flushed 3 t = ((cfg0.win 3).blk t).view.read (Elt Ideal) (outArr m c) := by
  funext y
  rw [View.read_apply]
  show outRow m c (t.val / 8) (win0_3.xinj (grid0.coords t) y) = outArr m c (((cfg0.win 3).blk t).view.emb y)
  have hg := geom3 t
  have hy : (y 1).val < 128 := lt_of_lt_of_eq (y 1).isLt hg.2.2.2
  have he : ((((cfg0.win 3).blk t).view.emb y) 1).val = 128 * (t.val / 8) + (y 1).val := by
    show win0_3.index t 1 * 128 + 1 * (y 1).val = _
    rw [hg.2.1]; omega
  unfold outRow outArr lane
  exact congrArg₂ (· + ·)
    (accB_congr m c 8 (by rw [he]; omega) (by show (y 1).val = _ % 128; rw [he]; omega))
    (accR_congr m c 8 (by rw [he]; omega) (by show (y 1).val = _ % 128; rw [he]; omega))

/-- The two write-backs cover the output array. -/
theorem cover (c : Dev nD) (i : S1x256.Idx) :
    ∃ t : Fin cfg0.N, (cfg0.win 3).flush t = true ∧ i ∈ ((cfg0.win 3).blk t).view.set := by
  have h0 : (i 0).val = 0 := Nat.lt_one_iff.mp (i 0).isLt
  have h1 : (i 1).val < 256 := (i 1).isLt
  by_cases hlt : (i 1).val < 128
  · refine ⟨t0_7, by decide +kernel, ?_⟩
    have hg := geom3 t0_7
    show i ∈ ((View.whole main_v2).slice (win0_3.rect t0_7)).set
    rw [View.set_slice_whole, Rect.mem_set_unit]
    intro a
    match a with
    | ⟨0, _⟩ =>
      show win0_3.index t0_7 0 * 1 ≤ (i 0).val ∧ (i 0).val < win0_3.index t0_7 0 * 1 + win0_3.xsize (grid0.coords t0_7) 0
      rw [hg.1, hg.2.2.1]; omega
    | ⟨1, _⟩ =>
      show win0_3.index t0_7 1 * 128 ≤ (i 1).val ∧ (i 1).val < win0_3.index t0_7 1 * 128 + win0_3.xsize (grid0.coords t0_7) 1
      rw [hg.2.1, hg.2.2.2]; show 7 / 8 * 128 ≤ _ ∧ _ < 7 / 8 * 128 + 128; omega
  · refine ⟨t0_15, by decide +kernel, ?_⟩
    have hg := geom3 t0_15
    show i ∈ ((View.whole main_v2).slice (win0_3.rect t0_15)).set
    rw [View.set_slice_whole, Rect.mem_set_unit]
    intro a
    match a with
    | ⟨0, _⟩ =>
      show win0_3.index t0_15 0 * 1 ≤ (i 0).val ∧ (i 0).val < win0_3.index t0_15 0 * 1 + win0_3.xsize (grid0.coords t0_15) 0
      rw [hg.1, hg.2.2.1]; omega
    | ⟨1, _⟩ =>
      show win0_3.index t0_15 1 * 128 ≤ (i 1).val ∧ (i 1).val < win0_3.index t0_15 1 * 128 + win0_3.xsize (grid0.coords t0_15) 1
      rw [hg.2.1, hg.2.2.2]; show 15 / 8 * 128 ≤ _ ∧ _ < 15 / 8 * 128 + 128; omega

/-- The output array after the run. -/
theorem final3 (c : Dev nD) : (dats m 0 c).arrAt 3 cfg0.N = outArr m c :=
  (dats m 0 c).arrAt_eq_of_cover 3 (outArr m c) (fun t hf => flushed_eq m c t hf) (cover c)

/-! ## The result buffer after the host's reshape -/

theorem result_eq (c : Dev nD) :
    Pipeline.afterTail₀ cfgs (dats m) 0 (V0 m) [hostOps1] c main_v3
      = shapeCast S256 (outArr m c) shapeCasts_S1x256_S256 := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.tc.devRef main_v2)
      = outArr m c :=
    (Pipeline.withArrays_arr spec0 launch0.win.arr_inj c _ _ 3).trans (final3 m c)
  rw [hw]
  rfl

/-! ## The arrays the region reads are the arguments, two of them with their axes exchanged -/

theorem xT_apply (c : Dev nD) (cls : Fin 500) (col : Fin 256) :
    V m c main_v0 (ix2 cls col) = m ((c : Thread nD τ).loc main_arg0) (ix2 col cls) := by
  have e : (V m c main_v0 : S500x256.Idx → EReal)
      = transpose S500x256 [1, 0] (m ((c : Thread nD τ).loc main_arg0)) transposes_S256x500_S500x256_1_0 := by
    dsimp only [V, V0]
    simp only [hostOps0, List.flatten_cons, List.flatten_nil, List.append_nil, List.cons_append, List.nil_append]
    after_results
  rw [e]
  refine transpose_apply _ _ _ _ _ ?_
  intro b
  match b with
  | ⟨0, _⟩ => rfl
  | ⟨1, _⟩ => rfl

theorem lT_apply (c : Dev nD) (cls : Fin 500) (col : Fin 256) :
    V m c main_v1 (ix2 cls col) = m ((c : Thread nD τ).loc main_arg2) (ix2 col cls) := by
  have e : (V m c main_v1 : S500x256.Idx → BitVec 32)
      = transpose S500x256 [1, 0] (m ((c : Thread nD τ).loc main_arg2)) transposes_S256x500_S500x256_1_0 := by
    dsimp only [V, V0]
    simp only [hostOps0, List.flatten_cons, List.flatten_nil, List.append_nil, List.cons_append, List.nil_append]
    after_results
  rw [e]
  refine transpose_apply _ _ _ _ _ ?_
  intro b
  match b with
  | ⟨0, _⟩ => rfl
  | ⟨1, _⟩ => rfl

/-! ## The result is the per-sample loss -/

theorem termB_eq (c : Dev nD) (col : Fin 256) (cls : Fin 500) :
    termB m c col.val cls.val
      = bce (m ((c : Thread nD τ).loc main_arg0) (ix2 col cls)) (m ((c : Thread nD τ).loc main_arg2) (ix2 col cls)) := by
  unfold termB rdx rdl
  rw [dif_pos ⟨cls.isLt, col.isLt⟩, dif_pos ⟨cls.isLt, col.isLt⟩]
  show bce (V m c main_v0 (ix2 cls col)) (V m c main_v1 (ix2 cls col)) = _
  rw [xT_apply, lT_apply]

theorem termR_eq (c : Dev nD) (col : Fin 256) (cls : Fin 500) :
    termR m c col.val cls.val
      = rej (rowMax (m ((c : Thread nD τ).loc main_arg1)) cls col) (m ((c : Thread nD τ).loc main_arg2) (ix2 col cls)) := by
  unfold termR rdl rowMax
  rw [dif_pos ⟨cls.isLt, col.isLt⟩]
  show rej ((Finset.univ : Finset (Fin 256)).fold max negInf (fun d => rdw m c cls.val col.val d)) (V m c main_v1 (ix2 cls col)) = _
  rw [lT_apply]
  congr 2
  funext d
  unfold rdw
  rw [dif_pos ⟨cls.isLt, col.isLt⟩]
  show V m c main_arg1 (ix3 cls col d) = _
  rw [V_main_arg1]

theorem value_eq (c : Dev nD) :
    shapeCast S256 (outArr m c) shapeCasts_S1x256_S256
      = G (m ((c : Thread nD τ).loc main_arg0)) (m ((c : Thread nD τ).loc main_arg1)) (m ((c : Thread nD τ).loc main_arg2)) := by
  funext j
  obtain ⟨col, rfl⟩ : ∃ col : Fin 256, j = ix1 col := ⟨j 0, eq_ix1 j⟩
  rw [shapeCast_apply (outArr m c) shapeCasts_S1x256_S256 (ix1 col) (ix2 (0 : Fin 1) col) (by
    rw [Shape.rowMajor_val_two, Shape.rowMajor_val_one]; show 0 * 256 + col.val = col.val; omega)]
  have hb : 128 * (col.val / 128) + col.val % 128 = col.val := by omega
  show (∑ k ∈ Finset.range 8, ∑ r : Fin 64,
        if 64 * k + r.val < 500 then termB m c (128 * (col.val / 128) + col.val % 128) (64 * k + r.val) else 0)
      + (∑ k ∈ Finset.range 8, ∑ r : Fin 64,
        if 64 * k + r.val < 500 then termR m c (128 * (col.val / 128) + col.val % 128) (64 * k + r.val) else 0)
    = (∑ cls : Fin 500, bce ((m ((c : Thread nD τ).loc main_arg0)) (ix2 col cls)) ((m ((c : Thread nD τ).loc main_arg2)) (ix2 col cls)))
      + ∑ cls : Fin 500, rej (rowMax (m ((c : Thread nD τ).loc main_arg1)) cls col) ((m ((c : Thread nD τ).loc main_arg2)) (ix2 col cls))
  rw [hb, Finset.sum_range, Finset.sum_range, sum_blocks (fun cls => termB m c col.val cls),
    sum_blocks (fun cls => termR m c col.val cls)]
  exact congrArg₂ (· + ·) (Finset.sum_congr rfl fun cls _ => termB_eq m c col cls)
    (Finset.sum_congr rfl fun cls _ => termR_eq m c col cls)

/-- The idealized kernel's run: it terminates without a fault, its result the per-sample loss of the arguments, the
    arguments unchanged. -/
theorem run_value : θ_run defs (onTc (τ := τ) (main (F := Ideal))) ⟨m, fun _ => 0, ρ⟩ (fun r => ∀ c : Dev nD,
    r.2.mem ((c.tc : Thread nD τ).loc main_v3)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans ((result_eq m c).trans (value_eq m c)),
      ((h c).2 main_arg0 (Pipeline.mem_restRefs_of main_arg0 (by decide) (by decide))).trans (W_main_arg0 m (dats m) c),
      ((h c).1 2).trans (((dats m 0 c).arrAt_in 2 rfl _).trans (V_main_arg1 m c)),
      ((h c).2 main_arg2 (Pipeline.mem_restRefs_of main_arg2 (by decide) (by decide))).trans (W_main_arg2 m (dats m) c)⟩)
    (run_main m ρ)

end Cert.KernelIdeal.IdealRun

end
-- ==== Proof.RefTerm.lean ====
/-
  The reference program's result as ONE pure term of its three argument arrays: its host operations composed in
  program order, the outlined functions (softplus, log_sigmoid, where) written in place.
-/
import proofs.«169059_j30399778521687_1_alg».proof.ReferenceIdeal

noncomputable section

namespace Cert.ReferenceIdeal.RefTerm

open Idealize.ShloMosaic Idealize.SL.Sem Cert.ReferenceIdeal

variable {F : FTy → Type} [FloatOps F] [Facts]
open Facts₀ Facts

/-- A scalar f32 word spread over the [256, 500] array. -/
def splat (b : BitVec 32) : FVec F S256x500 .f32 :=
  broadcastInDim S256x500 ![] bcast_S_S256x500 (constant S_ .f32 b)

/-- softplus as the host prints it: the NaN guard, then max(z, 0) + log1p(exp(-|z - 0|)). -/
def softplusT (z : FVec F S256x500 .f32) : FVec F S256x500 .f32 :=
  select (cmpf .une (subf z (splat 0x00000000#32)) (subf z (splat 0x00000000#32)))
    (addf z (splat 0x00000000#32))
    (addf (maximumf z (splat 0x00000000#32))
      (Host.log1p (Host.exp (Host.negf (Host.absf (subf z (splat 0x00000000#32)))))))

/-- log_sigmoid x = -(softplus (-x)). -/
def logsigT (x : FVec F S256x500 .f32) : FVec F S256x500 .f32 := Host.negf (softplusT (Host.negf x))

/-- The cross-entropy array, negated: -(y · logsig x + (1 - y) · logsig (-x)). -/
def bceT (x : FVec F S256x500 .f32) (l : IVec S256x500 32) : FVec F S256x500 .f32 :=
  Host.negf (addf (mulf (sitofp .f32 l) (logsigT x))
    (mulf (subf (splat 0x3F800000#32) (sitofp .f32 l)) (logsigT (Host.negf x))))

/-- The row maxima over the feature axis of the transposed feature array, from -∞. -/
def maxT (w : FVec F S500x256x256 .f32) : FVec F S256x500 .f32 :=
  Host.reduce FloatOps.maximumf (transpose S256x500x256 [1, 0, 2] w transposes_S500x256x256_S256x500x256_1_0_2)
    (constant S_ .f32 0xFF800000#32) reducesTo_S256x500x256_S256x500_d2 h_S_

/-- The rejection array: where the label is zero, max(1 / (1 + exp(-m)) - margin, 0); elsewhere zero. -/
def rejT (w : FVec F S500x256x256 .f32) (l : IVec S256x500 32) : FVec F S256x500 .f32 :=
  select (cmpi .eq l (broadcastInDim S256x500 ![] bcast_S_S256x500 (constantI S_ 32 0#32)))
    (maximumf (subf (Host.divf (splat 0x3F800000#32) (addf (splat 0x3F800000#32) (Host.exp (Host.negf (maxT w)))))
        (splat 0x3E99999A#32)) (splat 0x00000000#32))
    (broadcastInDim S256x500 ![] bcast_S_S256x500 (id (constant S_ .f32 0x00000000#32)))

/-- The reference's result: the class sums of the two arrays, the second scaled by one, added. -/
def refTerm (x : FVec F S256x500 .f32) (w : FVec F S500x256x256 .f32) (l : IVec S256x500 32) : FVec F S256 .f32 :=
  addf (Host.reduceAdd (bceT x l) (constant S_ .f32 0x00000000#32) reducesTo_S256x500_S256_d1 h_S_)
    (mulf (broadcastInDim S256 ![] bcast_S_S256 (constant S_ .f32 0x3F800000#32))
      (Host.reduceAdd (rejT w l) (constant S_ .f32 0x00000000#32) reducesTo_S256x500_S256_d1 h_S_))

end Cert.ReferenceIdeal.RefTerm

end
-- ==== Proof.RefRun.lean ====
/-
  The reference program's run: every weakly fair execution of its @main terminates without a fault, its result buffer
  holding the composed term `RefTerm.refTerm` of the argument arrays, and the arguments unchanged.
-/
import proofs.«169059_j30399778521687_1_alg».proof.Proof.RefTerm
import proofs.«169059_j30399778521687_1_alg».proof.Proof.Gen.ReferenceIdeal
import Idealize.ShloMosaic.Lib.StableHlo.Run
import Idealize.ShloMosaic.Adequacy
import Idealize.ShloMosaic.Init
import Idealize.ShloMosaic.Lib.Pipeline.Regions

noncomputable section

namespace Cert.ReferenceIdeal.RefRun

open Idealize.ShloMosaic Idealize.ShloMosaic.TcCoe Idealize.SL.Sem Cert.ReferenceIdeal Cert.ReferenceIdeal.RefTerm

variable {F : FTy → Type} [FloatOps F]

open StableHlo Facts₀ Facts

/-- @main's operations in order, each call's operations written in place over that call's buffer record: the
    label's conversion; log_sigmoid of the scores (a negation, softplus's fourteen, a negation); the first product;
    one minus the label; the scores negated and log_sigmoid of them (sixteen again); the second product, the sum, its
    negation and its row sums; the feature array transposed and its row maxima; the sigmoid of the maxima, the margin
    taken off and the result clamped at zero; the label's comparison with zero and the select (three); its row
    sums, the unit weight, and the final sum. -/
abbrev ops : List (HloOp τ sig (Elt F)) :=
  [
    unary main_arg2 main_v0 (sitofp .f32 : (⟨S256x500, .i32⟩ : BufTy).Contents (Elt F) → (⟨S256x500, .f32⟩ : BufTy).Contents (Elt F)),
    TRef.unary (.of main_arg0 : TRef sig ⟨S256x500, .f32⟩) main_call0.v0 Host.negf,
    TRef.nullary main_call0.call0.cst (constant S_ .f32 0x00000000#32),
    TRef.unary main_call0.call0.cst main_call0.call0.v0 (broadcastInDim S256x500 ![] bcast_S_S256x500),
    TRef.binary main_call0.v0 main_call0.call0.v0 main_call0.call0.v1 maximumf,
    TRef.unary main_call0.call0.cst main_call0.call0.v2 (broadcastInDim S256x500 ![] bcast_S_S256x500),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S256x500 ![] bcast_S_S256x500),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    binary main_v0 main_v1 main_v2 (mulf : (⟨S256x500, .f32⟩ : BufTy).Contents (Elt F) → (⟨S256x500, .f32⟩ : BufTy).Contents (Elt F) → (⟨S256x500, .f32⟩ : BufTy).Contents (Elt F)),
    nullary main_cst (constant S_ .f32 0x3F800000#32),
    unary main_cst main_v3 (broadcastInDim S256x500 ![] bcast_S_S256x500 : (⟨S_, .f32⟩ : BufTy).Contents (Elt F) → (⟨S256x500, .f32⟩ : BufTy).Contents (Elt F)),
    binary main_v3 main_v0 main_v4 (subf : (⟨S256x500, .f32⟩ : BufTy).Contents (Elt F) → (⟨S256x500, .f32⟩ : BufTy).Contents (Elt F) → (⟨S256x500, .f32⟩ : BufTy).Contents (Elt F)),
    unary main_arg0 main_v5 (Host.negf : (⟨S256x500, .f32⟩ : BufTy).Contents (Elt F) → (⟨S256x500, .f32⟩ : BufTy).Contents (Elt F)),
    TRef.unary (.of main_v5 : TRef sig ⟨S256x500, .f32⟩) main_call1.v0 Host.negf,
    TRef.nullary main_call1.call0.cst (constant S_ .f32 0x00000000#32),
    TRef.unary main_call1.call0.cst main_call1.call0.v0 (broadcastInDim S256x500 ![] bcast_S_S256x500),
    TRef.binary main_call1.v0 main_call1.call0.v0 main_call1.call0.v1 maximumf,
    TRef.unary main_call1.call0.cst main_call1.call0.v2 (broadcastInDim S256x500 ![] bcast_S_S256x500),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S256x500 ![] bcast_S_S256x500),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf,
    binary main_v4 main_v6 main_v7 (mulf : (⟨S256x500, .f32⟩ : BufTy).Contents (Elt F) → (⟨S256x500, .f32⟩ : BufTy).Contents (Elt F) → (⟨S256x500, .f32⟩ : BufTy).Contents (Elt F)),
    binary main_v2 main_v7 main_v8 (addf : (⟨S256x500, .f32⟩ : BufTy).Contents (Elt F) → (⟨S256x500, .f32⟩ : BufTy).Contents (Elt F) → (⟨S256x500, .f32⟩ : BufTy).Contents (Elt F)),
    unary main_v8 main_v9 (Host.negf : (⟨S256x500, .f32⟩ : BufTy).Contents (Elt F) → (⟨S256x500, .f32⟩ : BufTy).Contents (Elt F)),
    nullary main_cst_0 (constant S_ .f32 0x00000000#32),
    binary main_v9 main_cst_0 main_v10 ((fun x v => Host.reduceAdd x v reducesTo_S256x500_S256_d1 h_S_) : (⟨S256x500, .f32⟩ : BufTy).Contents (Elt F) → (⟨S_, .f32⟩ : BufTy).Contents (Elt F) → (⟨S256, .f32⟩ : BufTy).Contents (Elt F)),
    unary main_arg1 main_v11 ((transpose S256x500x256 [1, 0, 2] · transposes_S500x256x256_S256x500x256_1_0_2) : (⟨S500x256x256, .f32⟩ : BufTy).Contents (Elt F) → (⟨S256x500x256, .f32⟩ : BufTy).Contents (Elt F)),
    nullary main_cst_1 (constant S_ .f32 0xFF800000#32),
    binary main_v11 main_cst_1 main_v12 ((fun x v => Host.reduce FloatOps.maximumf x v reducesTo_S256x500x256_S256x500_d2 h_S_) : (⟨S256x500x256, .f32⟩ : BufTy).Contents (Elt F) → (⟨S_, .f32⟩ : BufTy).Contents (Elt F) → (⟨S256x500, .f32⟩ : BufTy).Contents (Elt F)),
    unary main_v12 main_v13 (Host.negf : (⟨S256x500, .f32⟩ : BufTy).Contents (Elt F) → (⟨S256x500, .f32⟩ : BufTy).Contents (Elt F)),
    unary main_v13 main_v14 (Host.exp : (⟨S256x500, .f32⟩ : BufTy).Contents (Elt F) → (⟨S256x500, .f32⟩ : BufTy).Contents (Elt F)),
    nullary main_cst_2 (constant S_ .f32 0x3F800000#32),
    unary main_cst_2 main_v15 (broadcastInDim S256x500 ![] bcast_S_S256x500 : (⟨S_, .f32⟩ : BufTy).Contents (Elt F) → (⟨S256x500, .f32⟩ : BufTy).Contents (Elt F)),
    binary main_v15 main_v14 main_v16 (addf : (⟨S256x500, .f32⟩ : BufTy).Contents (Elt F) → (⟨S256x500, .f32⟩ : BufTy).Contents (Elt F) → (⟨S256x500, .f32⟩ : BufTy).Contents (Elt F)),
    nullary main_cst_3 (constant S_ .f32 0x3F800000#32),
    unary main_cst_3 main_v17 (broadcastInDim S256x500 ![] bcast_S_S256x500 : (⟨S_, .f32⟩ : BufTy).Contents (Elt F) → (⟨S256x500, .f32⟩ : BufTy).Contents (Elt F)),
    binary main_v17 main_v16 main_v18 (Host.divf : (⟨S256x500, .f32⟩ : BufTy).Contents (Elt F) → (⟨S256x500, .f32⟩ : BufTy).Contents (Elt F) → (⟨S256x500, .f32⟩ : BufTy).Contents (Elt F)),
    nullary main_cst_4 (constant S_ .f32 0x3E99999A#32),
    unary main_cst_4 main_v19 (broadcastInDim S256x500 ![] bcast_S_S256x500 : (⟨S_, .f32⟩ : BufTy).Contents (Elt F) → (⟨S256x500, .f32⟩ : BufTy).Contents (Elt F)),
    binary main_v18 main_v19 main_v20 (subf : (⟨S256x500, .f32⟩ : BufTy).Contents (Elt F) → (⟨S256x500, .f32⟩ : BufTy).Contents (Elt F) → (⟨S256x500, .f32⟩ : BufTy).Contents (Elt F)),
    nullary main_cst_5 (constant S_ .f32 0x00000000#32),
    unary main_cst_5 main_v21 (broadcastInDim S256x500 ![] bcast_S_S256x500 : (⟨S_, .f32⟩ : BufTy).Contents (Elt F) → (⟨S256x500, .f32⟩ : BufTy).Contents (Elt F)),
    binary main_v20 main_v21 main_v22 (maximumf : (⟨S256x500, .f32⟩ : BufTy).Contents (Elt F) → (⟨S256x500, .f32⟩ : BufTy).Contents (Elt F) → (⟨S256x500, .f32⟩ : BufTy).Contents (Elt F)),
    nullary main_c (constantI S_ 32 0#32),
    unary main_c main_v23 (broadcastInDim S256x500 ![] bcast_S_S256x500 : (⟨S_, .i32⟩ : BufTy).Contents (Elt F) → (⟨S256x500, .i32⟩ : BufTy).Contents (Elt F)),
    binary main_arg2 main_v23 main_v24 (cmpi .eq : (⟨S256x500, .i32⟩ : BufTy).Contents (Elt F) → (⟨S256x500, .i32⟩ : BufTy).Contents (Elt F) → (⟨S256x500, .i1⟩ : BufTy).Contents (Elt F)),
    nullary main_cst_6 (constant S_ .f32 0x00000000#32),
    TRef.unary (.of main_cst_6 : TRef sig ⟨S_, .f32⟩) main_call2.v0 id,
    TRef.unary main_call2.v0 main_call2.v1 (broadcastInDim S256x500 ![] bcast_S_S256x500),
    TRef.ternary (.of main_v24 : TRef sig ⟨S256x500, .i1⟩) (.of main_v22 : TRef sig ⟨S256x500, .f32⟩) main_call2.v1 main_call2.v2 select,
    nullary main_cst_7 (constant S_ .f32 0x00000000#32),
    binary main_v25 main_cst_7 main_v26 ((fun x v => Host.reduceAdd x v reducesTo_S256x500_S256_d1 h_S_) : (⟨S256x500, .f32⟩ : BufTy).Contents (Elt F) → (⟨S_, .f32⟩ : BufTy).Contents (Elt F) → (⟨S256, .f32⟩ : BufTy).Contents (Elt F)),
    nullary main_cst_8 (constant S_ .f32 0x3F800000#32),
    unary main_cst_8 main_v27 (broadcastInDim S256 ![] bcast_S_S256 : (⟨S_, .f32⟩ : BufTy).Contents (Elt F) → (⟨S256, .f32⟩ : BufTy).Contents (Elt F)),
    binary main_v27 main_v26 main_v28 (mulf : (⟨S256, .f32⟩ : BufTy).Contents (Elt F) → (⟨S256, .f32⟩ : BufTy).Contents (Elt F) → (⟨S256, .f32⟩ : BufTy).Contents (Elt F)),
    binary main_v10 main_v28 main_v29 (addf : (⟨S256, .f32⟩ : BufTy).Contents (Elt F) → (⟨S256, .f32⟩ : BufTy).Contents (Elt F) → (⟨S256, .f32⟩ : BufTy).Contents (Elt F)) ]

/-- @main is that straight line: the functions' definitions unfolded at their calls, both sides are one chain of
    host steps once sequencing is re-associated. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    unary_bufs_sub .., unary_bufs_sub .., nullary_bufs_sub .., unary_bufs_sub .., binary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., ternary_bufs_sub .., unary_bufs_sub .., binary_bufs_sub ..,
    nullary_bufs_sub .., unary_bufs_sub .., binary_bufs_sub .., unary_bufs_sub .., unary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub .., unary_bufs_sub .., binary_bufs_sub .., binary_bufs_sub .., unary_bufs_sub .., nullary_bufs_sub ..,
    binary_bufs_sub .., unary_bufs_sub .., nullary_bufs_sub .., binary_bufs_sub .., unary_bufs_sub .., unary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., nullary_bufs_sub .., binary_bufs_sub .., nullary_bufs_sub .., unary_bufs_sub .., binary_bufs_sub ..,
    binary_bufs_sub ..⟩

/-- The result buffer after the line is the composed term of the three argument arrays. -/
theorem out_eq (V : Valuation τ sig (Elt F)) :
    after ops V (Proc.devRef .tc main_v29)
      = refTerm (F := F) (V (Proc.devRef .tc main_arg0)) (V (Proc.devRef .tc main_arg1)) (V (Proc.devRef .tc main_arg2)) := by
  after_results_simp
  rfl

/-- No operation of the line writes an argument's buffer. -/
theorem arg0_eq (V : Valuation τ sig (Elt F)) :
    after ops V (Proc.devRef .tc main_arg0) = V (Proc.devRef .tc main_arg0) := by
  after_results_simp

theorem arg1_eq (V : Valuation τ sig (Elt F)) :
    after ops V (Proc.devRef .tc main_arg1) = V (Proc.devRef .tc main_arg1) := by
  after_results_simp

theorem arg2_eq (V : Valuation τ sig (Elt F)) :
    after ops V (Proc.devRef .tc main_arg2) = V (Proc.devRef .tc main_arg2) := by
  after_results_simp

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v29)
          = refTerm (F := F) (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) := by
  exact (θ_run defs _ _).mono (fun _ h c => ⟨(h c main_v29).trans (out_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.RefValue.lean ====
/-
  The reference's composed term, read on the extended reals, is the per-sample loss `Spec.G` of the argument arrays.
-/
import proofs.«169059_j30399778521687_1_alg».proof.Proof.RefTerm
import proofs.«169059_j30399778521687_1_alg».proof.Proof.Spec
import proofs.«169059_j30399778521687_1_alg».proof.Proof.Gen.ReferenceIdeal
import Idealize.ShloMosaic.PureOps.Ideal.Laws
import Idealize.ShloMosaic.Lib.ValueIdx
import Idealize.ShloMosaic.Lib.Pipeline.Value

noncomputable section

open scoped BigOperators

namespace Cert.ReferenceIdeal.RefValue

open Idealize.ShloMosaic Idealize.ShloMosaic.ValueIdx Cert.ReferenceIdeal Cert.ReferenceIdeal.RefTerm

/-! ## Words -/

/-- The f32 word `0x3F800000` is the number one. -/
theorem ofBits_one_f32 : Ideal.ofBits .f32 0x3F800000#32 = 1 := by
  have h : ((8388608 : ℝ) * ((2 : ℝ) ^ 23)⁻¹) = 1 := by norm_num
  simp [Ideal.ofBits, Ideal.ieee]
  exact_mod_cast h

/-- A splat reads its word's value everywhere. -/
theorem splat_apply (b : BitVec 32) (i : S256x500.Idx) : splat (F := Ideal) b i = Ideal.ofBits .f32 b := rfl

/-- Nothing differs from itself: the guard comparison is the bit zero. -/
theorem cmp_une_self (x : EReal) : Ideal.cmp .une x x = 0#1 := by
  simp [Ideal.cmp]

/-! ## The arrays, element by element -/

/-- The printed softplus at an index is `Spec.softplus` of the element. -/
theorem softplusT_apply (z : FVec Ideal S256x500 .f32) (i : S256x500.Idx) :
    softplusT (F := Ideal) z i = Cert.Spec.softplus (z i) := by
  unfold softplusT
  rw [select_apply, cmpf_apply]
  show Scalar.select (Ideal.cmp .une _ _) _ _ = _
  rw [cmp_une_self, select_zero]
  show max (z i) (Ideal.ofBits .f32 0x00000000#32)
      + Ideal.log1p (Ideal.exp (-(max (z i - Ideal.ofBits .f32 0x00000000#32) (-(z i - Ideal.ofBits .f32 0x00000000#32))))) = _
  rw [Ideal.ofBits_zero_f32, sub_zero]
  rfl

/-- The printed log-sigmoid at an index. -/
theorem logsigT_apply (x : FVec Ideal S256x500 .f32) (i : S256x500.Idx) :
    logsigT (F := Ideal) x i = Cert.Spec.logsig (x i) := by
  unfold logsigT
  show -(softplusT (F := Ideal) (Host.negf x) i) = _
  rw [softplusT_apply]
  rfl

/-- The cross-entropy array at (b, c). -/
theorem bceT_apply (x : FVec Ideal S256x500 .f32) (l : IVec S256x500 32) (b : Fin 256) (c : Fin 500) :
    bceT (F := Ideal) x l (ix2 b c) = Cert.Spec.bce (x (ix2 b c)) (l (ix2 b c)) := by
  unfold bceT
  show -(((((l (ix2 b c)).toInt : ℝ) : EReal)) * logsigT (F := Ideal) x (ix2 b c)
      + (Ideal.ofBits .f32 0x3F800000#32 - ((((l (ix2 b c)).toInt : ℝ) : EReal))) * logsigT (F := Ideal) (Host.negf x) (ix2 b c)) = _
  rw [logsigT_apply, logsigT_apply, ofBits_one_f32]
  rfl

/-! ## The row maxima -/

/-- The feature coordinate inserted last: the index over (b, c) at feature `d` is (b, c, d). -/
theorem lift3 (h : S256x500x256.Reduces [2] S256x500) (b : Fin 256) (c : Fin 500) (d : Fin 256) :
    h.lift (ix2 b c) d = ix3 b c d := by
  funext a
  apply Fin.ext
  match a with
  | ⟨0, _⟩ => rfl
  | ⟨1, _⟩ => rfl
  | ⟨2, _⟩ => rfl

/-- The transposed feature array at (b, c, d) is the feature array at (c, b, d). -/
theorem transpose_w_apply (w : FVec Ideal S500x256x256 .f32) (b : Fin 256) (c : Fin 500) (d : Fin 256) :
    transpose S256x500x256 [1, 0, 2] w Facts₀.transposes_S500x256x256_S256x500x256_1_0_2 (ix3 b c d) = w (ix3 c b d) := by
  refine transpose_apply _ w _ _ _ ?_
  intro a
  match a with
  | ⟨0, _⟩ => rfl
  | ⟨1, _⟩ => rfl
  | ⟨2, _⟩ => rfl

/-- The maxima array at (b, c) is the fold of `max` from -∞ over the features of row (c, b). -/
theorem maxT_apply (w : FVec Ideal S500x256x256 .f32) (b : Fin 256) (c : Fin 500) :
    maxT (F := Ideal) w (ix2 b c) = Cert.Spec.rowMax w c b := by
  have h : S256x500x256.Reduces [2] S256x500 := by decide
  unfold maxT Cert.Spec.rowMax
  rw [Host.reduce_eq_fold_single (FloatOps.maximumf (F := Ideal) (φ := .f32)) _ _ _ h]
  show (Finset.univ : Finset (Fin 256)).fold max Cert.Spec.negInf _ = _
  refine Finset.fold_congr ?_
  intro d _
  show transpose S256x500x256 [1, 0, 2] w _ (h.lift (ix2 b c) d) = _
  rw [lift3, transpose_w_apply]

/-! ## The rejection array -/

/-- The margin splat reads the margin's value. -/
theorem splat_margin (i : S256x500.Idx) : splat (F := Ideal) 0x3E99999A#32 i = Cert.Spec.margin := rfl

/-- The clipped logistic of an array, as the reference composes it (divide, add, exponential, negate), at an index. -/
theorem clipT_apply (m : FVec Ideal S256x500 .f32) (i : S256x500.Idx) :
    maximumf (subf (Host.divf (splat 0x3F800000#32) (addf (splat 0x3F800000#32) (Host.exp (Host.negf m))))
        (splat 0x3E99999A#32)) (splat (F := Ideal) 0x00000000#32) i
      = max (Ideal.logistic (m i) - Cert.Spec.margin) 0 := by
  rw [maximumf_apply, subf_apply, splat_margin, splat_apply, Ideal.ofBits_zero_f32]
  show max (Ideal.div (Ideal.ofBits .f32 0x3F800000#32) (Ideal.ofBits .f32 0x3F800000#32 + Ideal.exp (-(m i))) - _) 0 = _
  rw [ofBits_one_f32]
  rfl

/-- The label test at an index compares the label word with the zero word. -/
theorem labelTest_apply (l : IVec S256x500 32) (i : S256x500.Idx) :
    cmpi .eq l (broadcastInDim S256x500 ![] Facts₀.bcast_S_S256x500 (constantI S_ 32 0#32)) i = IntOp.cmpi .eq (l i) 0#32 := rfl

/-- The else-branch of the rejection array is zero. -/
theorem zeroT_apply (i : S256x500.Idx) :
    broadcastInDim S256x500 ![] Facts₀.bcast_S_S256x500 (id (constant (F := Ideal) S_ .f32 0x00000000#32)) i = 0 := by
  show Ideal.ofBits .f32 0x00000000#32 = 0
  exact Ideal.ofBits_zero_f32

/-- The rejection array at (b, c): where the label word is zero, the margin-clipped logistic of the row maximum. -/
theorem rejT_apply (w : FVec Ideal S500x256x256 .f32) (l : IVec S256x500 32) (b : Fin 256) (c : Fin 500) :
    rejT (F := Ideal) w l (ix2 b c) = Cert.Spec.rej (Cert.Spec.rowMax w c b) (l (ix2 b c)) := by
  unfold rejT Cert.Spec.rej
  rw [select_apply, clipT_apply, maxT_apply, labelTest_apply, zeroT_apply]
  by_cases hl : l (ix2 b c) = 0#32
  · have h1 : IntOp.cmpi .eq (l (ix2 b c)) 0#32 = 1#1 := by rw [hl]; decide
    rw [if_pos hl, h1, select_one]
  · have h0 : IntOp.cmpi .eq (l (ix2 b c)) 0#32 = 0#1 := by
      show BitVec.ofBool (l (ix2 b c) == 0#32) = 0#1
      rw [beq_eq_false_iff_ne.mpr hl]
      rfl
    rw [if_neg hl, h0, select_zero]

/-! ## The result -/

/-- The class coordinate inserted last: the index over sample `b` at class `c` is (b, c). -/
theorem lift2 (h : S256x500.Reduces [1] S256) (b : Fin 256) (c : Fin 500) : h.lift (ix1 b) c = ix2 b c := by
  funext a
  apply Fin.ext
  match a with
  | ⟨0, _⟩ => rfl
  | ⟨1, _⟩ => rfl

theorem refTerm_eq (x : FVec Ideal S256x500 .f32) (w : FVec Ideal S500x256x256 .f32) (l : IVec S256x500 32) :
    refTerm (F := Ideal) x w l = Cert.Spec.G x w l := by
  have h : S256x500.Reduces [1] S256 := by decide
  funext j
  obtain ⟨b, rfl⟩ : ∃ b : Fin 256, j = ix1 b := ⟨j 0, eq_ix1 j⟩
  unfold refTerm Cert.Spec.G
  show Ideal.hostReduceAdd Facts₀.reducesTo_S256x500_S256_d1 (bceT (F := Ideal) x l) (Ideal.ofBits .f32 0x00000000#32) (ix1 b)
      + Ideal.ofBits .f32 0x3F800000#32
        * Ideal.hostReduceAdd Facts₀.reducesTo_S256x500_S256_d1 (rejT (F := Ideal) w l) (Ideal.ofBits .f32 0x00000000#32) (ix1 b)
    = (∑ c : Fin 500, Cert.Spec.bce (x (ix2 b c)) (l (ix2 b c)))
      + ∑ c : Fin 500, Cert.Spec.rej (Cert.Spec.rowMax w c b) (l (ix2 b c))
  rw [Ideal.hostReduceAdd_single _ h, Ideal.hostReduceAdd_single _ h, Ideal.ofBits_zero_f32, ofBits_one_f32, zero_add, zero_add,
    one_mul]
  refine congrArg₂ (· + ·) ?_ ?_
  · exact Finset.sum_congr rfl fun (c : Fin 500) _ => by rw [lift2, bceT_apply]
  · exact Finset.sum_congr rfl fun (c : Fin 500) _ => by rw [lift2, rejT_apply]

end Cert.ReferenceIdeal.RefValue

end
-- ==== Proof.lean ====
/-
  The certificate of a per-sample loss kernel against its jnp reference.

  Per sample b the loss is  Σ_c bce(x[b,c], y[b,c]) + Σ_c rej(max_d w[c,b,d], y[b,c])  over 500 classes: a binary
  cross-entropy with logits, and a rejection term — the margin-clipped sigmoid of the feature maximum, counted where
  the label is zero. The kernel streams the class axis in eight blocks of 64 rows (the last cut at row 500 and masked
  by the row index), keeps the two column sums in two accumulators that restart at the first block of each
  sample-block and are combined and written at the last; the reference takes the two sums whole. On the extended reals
  a sum may be regrouped freely (addition is commutative and associative there), the kernel's `0 - x` is the
  reference's negation, both NaN guards compare a value with itself and never fire, the kernel's logistic is by
  definition the reference's `1 / (1 + exp (-m))`, and a label word converted exactly is zero iff the word is. So both
  programs end at `Spec.G` of the arguments.

  The word-level kernel's frame names no contents: its blocks' rows past row 500 hold words nothing names, and a frame
  needs none. The idealized kernel's run tracks the accumulators through the sixteen grid points. The reference's run
  reads its host operations in program order, the outlined functions in place. `preserves` is `True`: the ideal pass
  rewrote nothing.
-/
import proofs.«169059_j30399778521687_1_alg».proof.Defs
import proofs.«169059_j30399778521687_1_alg».proof.Proof.FrameBits
import proofs.«169059_j30399778521687_1_alg».proof.Proof.IdealRun
import proofs.«169059_j30399778521687_1_alg».proof.Proof.RefRun
import proofs.«169059_j30399778521687_1_alg».proof.Proof.RefValue
import proofs.«169059_j30399778521687_1_alg».proof.Proof.Gen.Kernel
import proofs.«169059_j30399778521687_1_alg».proof.Proof.Gen.KernelIdeal
import proofs.«169059_j30399778521687_1_alg».proof.Proof.Gen.ReferenceIdeal
import proofs.«169059_j30399778521687_1_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := Cert.Kernel.FrameBits.frame

theorem frame_ki : Cert.frame_KernelIdeal := fun m ρ _ =>
  (θ_run Cert.KernelIdeal.defs _ _).mono (fun _ h c => (h c).2) (Cert.KernelIdeal.IdealRun.run_value m ρ)

theorem frame_ri : Cert.frame_ReferenceIdeal := fun m ρ _ =>
  (θ_run Cert.ReferenceIdeal.defs _ _).mono (fun _ h c => (h c).2) (Cert.ReferenceIdeal.RefRun.run (F := Ideal) m ρ)

/-- Both idealized programs end at the per-sample loss of arguments that agree. -/
theorem algebraic : Cert.algebraic_KernelIdeal_ReferenceIdeal := by
  intro m ρ m' ρ' _ hagree
  refine ⟨_, Cert.KernelIdeal.IdealRun.run_value m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refTerm_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
